-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S16384x64 : Shape := ⟨2, ![16384, 64]⟩
abbrev S16384x6 : Shape := ⟨2, ![16384, 6]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S16384x6 : S_.BroadcastsInDim S16384x6 (![] : Fin 0 → Fin S16384x6.rank)
  reducesTo_S16384x6_S_d0_1 : S16384x6.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x4096 .f32) (main_arg1 : FVec F S16384x64 .f32) (main_arg2 : IVec S16384x6 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_c_2 : IVec S_ 32 := constantI S_ 32 0#32
  let main_v9 : IVec S16384x6 32 := broadcastInDim S16384x6 ![] bcast_S_S16384x6 main_c_2
  let main_v10 : IVec S16384x6 1 := cmpi .sge main_arg2 main_v9
  let main_c_3 : IVec S_ 1 := constantI S_ 1 1#1
  let main_v11 : IVec S_ 1 := (fun x v => Host.reduce IntOp.andi x v reducesTo_S16384x6_S_d0_1 h_S_) main_v10 main_c_3
  let main_v12 : IVec S_ 1 := andi main_v8 main_v11
  let main_c_4 : IVec S_ 32 := constantI S_ 32 4096#32
  let main_v13 : IVec S16384x6 32 := broadcastInDim S16384x6 ![] bcast_S_S16384x6 main_c_4
  let main_v14 : IVec S16384x6 1 := cmpi .slt main_arg2 main_v13
  let main_c_5 : IVec S_ 1 := constantI S_ 1 1#1
  let main_v15 : IVec S_ 1 := (fun x v => Host.reduce IntOp.andi x v reducesTo_S16384x6_S_d0_1 h_S_) main_v14 main_c_5
  fn_part1 (F := F) main_v12 main_v15
-- ==== Kernel.lean ====
abbrev S1024x4096 : Shape := ⟨2, ![1024, 4096]⟩
abbrev S16384x64 : Shape := ⟨2, ![16384, 64]⟩
abbrev S16384x6 : Shape := ⟨2, ![16384, 6]⟩
abbrev S_ : Shape := ⟨0, ![]⟩
abbrev S6 : Shape := ⟨1, ![6]⟩
abbrev S6x16384 : Shape := ⟨2, ![6, 16384]⟩
abbrev S98304 : Shape := ⟨1, ![98304]⟩
abbrev S16384 : Shape := ⟨1, ![16384]⟩
abbrev S1x16384 : Shape := ⟨2, ![1, 16384]⟩
abbrev S4096x16384 : Shape := ⟨2, ![4096, 16384]⟩
abbrev S98304x1 : Shape := ⟨2, ![98304, 1]⟩
abbrev S98304x2 : Shape := ⟨2, ![98304, 2]⟩
abbrev S64x16384 : Shape := ⟨2, ![64, 16384]⟩
abbrev S1024x16384 : Shape := ⟨2, ![1024, 16384]⟩
abbrev S4096x512 : Shape := ⟨2, ![4096, 512]⟩
abbrev S64x512 : Shape := ⟨2, ![64, 512]⟩
abbrev S1024x512 : Shape := ⟨2, ![1024, 512]⟩
abbrev S1x512 : Shape := ⟨2, ![1, 512]⟩

abbrev nBuf : Space → Nat
  | .hbm => 137
  | .vmem => 7
  | .smem => 0
  | _ => 0

abbrev hbmTy0_0 (i : Nat) : BufTy := match i % 128 with
  | 0 => ⟨S1024x4096, .f32⟩
  | 1 => ⟨S16384x64, .f32⟩
  | 2 => ⟨S16384x6, .i32⟩
  | 3 => ⟨S_, .f32⟩
  | 4 => ⟨S1024x4096, .f32⟩
  | 5 => ⟨S1024x4096, .i1⟩
  | 6 => ⟨S1024x4096, .bf16⟩
  | 7 => ⟨S6, .i32⟩
  | 8 => ⟨S_, .i32⟩
  | 9 => ⟨S6, .i32⟩
  | 10 => ⟨S6, .i32⟩
  | 11 => ⟨S_, .i32⟩
  | 12 => ⟨S_, .i32⟩
  | 13 => ⟨S_, .i1⟩
  | 14 => ⟨S_, .i32⟩
  | 15 => ⟨S6, .i32⟩
  | 16 => ⟨S6, .i1⟩
  | 17 => ⟨S6, .i1⟩
  | 18 => ⟨S6, .i1⟩
  | 19 => ⟨S_, .i32⟩
  | 20 => ⟨S_, .i32⟩
  | 21 => ⟨S6, .i32⟩
  | 22 => ⟨S6, .i32⟩
  | 23 => ⟨S6, .i32⟩
  | 24 => ⟨S_, .i32⟩
  | 25 => ⟨S6, .i32⟩
  | 26 => ⟨S6, .i32⟩
  | 27 => ⟨S_, .i32⟩
  | 28 => ⟨S6, .i32⟩
  | 29 => ⟨S6, .i32⟩
  | 30 => ⟨S_, .i32⟩
  | 31 => ⟨S6, .i32⟩
  | 32 => ⟨S6, .i1⟩
  | 33 => ⟨S6, .i32⟩
  | 34 => ⟨S_, .i32⟩
  | 35 => ⟨S_, .i32⟩
  | 36 => ⟨S_, .i32⟩
  | 37 => ⟨S_, .i32⟩
  | 38 => ⟨S6, .i32⟩
  | 39 => ⟨S6, .i32⟩
  | 40 => ⟨S_, .i32⟩
  | 41 => ⟨S6, .i32⟩
  | 42 => ⟨S6, .i32⟩
  | 43 => ⟨S6, .i32⟩
  | 44 => ⟨S6, .i32⟩
  | 45 => ⟨S_, .i32⟩
  | 46 => ⟨S6, .i32⟩
  | 47 => ⟨S6, .i1⟩
  | 48 => ⟨S6, .i32⟩
  | 49 => ⟨S_, .i32⟩
  | 50 => ⟨S_, .i32⟩
  | 51 => ⟨S6, .i32⟩
  | 52 => ⟨S6, .i32⟩
  | 53 => ⟨S_, .i32⟩
  | 54 => ⟨S6, .i32⟩
  | 55 => ⟨S6, .i32⟩
  | 56 => ⟨S6, .i32⟩
  | 57 => ⟨S6, .i32⟩
  | 58 => ⟨S_, .i32⟩
  | 59 => ⟨S6, .i32⟩
  | 60 => ⟨S6, .i1⟩
  | 61 => ⟨S6, .i32⟩
  | 62 => ⟨S_, .i32⟩
  | 63 => ⟨S_, .i32⟩
  | 64 => ⟨S6, .i32⟩
  | 65 => ⟨S6, .i32⟩
  | 66 => ⟨S_, .i32⟩
  | 67 => ⟨S6, .i32⟩
  | 68 => ⟨S6, .i32⟩
  | 69 => ⟨S6, .i32⟩
  | 70 => ⟨S6, .i32⟩
  | 71 => ⟨S_, .i32⟩
  | 72 => ⟨S6, .i32⟩
  | 73 => ⟨S6, .i1⟩
  | 74 => ⟨S6, .i32⟩
  | 75 => ⟨S_, .i32⟩
  | 76 => ⟨S_, .i32⟩
  | 77 => ⟨S6, .i32⟩
  | 78 => ⟨S6, .i32⟩
  | 79 => ⟨S_, .i32⟩
  | 80 => ⟨S6, .i32⟩
  | 81 => ⟨S6, .i32⟩
  | 82 => ⟨S6, .i32⟩
  | 83 => ⟨S6, .i32⟩
  | 84 => ⟨S_, .i32⟩
  | 85 => ⟨S6, .i32⟩
  | 86 => ⟨S6, .i1⟩
  | 87 => ⟨S6, .i32⟩
  | 88 => ⟨S_, .i32⟩
  | 89 => ⟨S_, .i32⟩
  | 90 => ⟨S6, .i32⟩
  | 91 => ⟨S6, .i32⟩
  | 92 => ⟨S_, .i32⟩
  | 93 => ⟨S6, .i32⟩
  | 94 => ⟨S6, .i32⟩
  | 95 => ⟨S6, .i32⟩
  | 96 => ⟨S6, .i32⟩
  | 97 => ⟨S_, .i32⟩
  | 98 => ⟨S6, .i32⟩
  | 99 => ⟨S6, .i1⟩
  | 100 => ⟨S6, .i32⟩
  | 101 => ⟨S_, .i32⟩
  | 102 => ⟨S_, .i32⟩
  | 103 => ⟨S6, .i32⟩
  | 104 => ⟨S6, .i32⟩
  | 105 => ⟨S6, .f32⟩
  | 106 => ⟨S6x16384, .i32⟩
  | 107 => ⟨S98304, .i32⟩
  | 108 => ⟨S16384, .i32⟩
  | 109 => ⟨S1x16384, .i32⟩
  | 110 => ⟨S6x16384, .i32⟩
  | 111 => ⟨S98304, .i32⟩
  | 112 => ⟨S6x16384, .f32⟩
  | 113 => ⟨S98304, .f32⟩
  | 114 => ⟨S_, .f32⟩
  | 115 => ⟨S4096x16384, .f32⟩
  | 116 => ⟨S_, .i32⟩
  | 117 => ⟨S98304, .i32⟩
  | 118 => ⟨S98304, .i1⟩
  | 119 => ⟨S_, .i32⟩
  | 120 => ⟨S98304, .i32⟩
  | 121 => ⟨S98304, .i32⟩
  | 122 => ⟨S98304, .i32⟩
  | 123 => ⟨S_, .i32⟩
  | 124 => ⟨S98304, .i32⟩
  | 125 => ⟨S98304, .i1⟩
  | 126 => ⟨S_, .i32⟩
  | 127 => ⟨S98304, .i32⟩
  | _ => ⟨S1024x4096, .f32⟩

abbrev hbmTy0_1 (i : Nat) : BufTy := match i % 128 with
  | 0 => ⟨S98304, .i32⟩
  | 1 => ⟨S98304, .i32⟩
  | 2 => ⟨S98304x1, .i32⟩
  | 3 => ⟨S98304x1, .i32⟩
  | 4 => ⟨S98304x2, .i32⟩
  | 5 => ⟨S4096x16384, .f32⟩
  | 6 => ⟨S4096x16384, .bf16⟩
  | 7 => ⟨S64x16384, .f32⟩
  | 8 => ⟨S1024x16384, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S64x512, .f32⟩
  | .local _ .vmem, ⟨4, _⟩ => ⟨S64x512, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_c_4 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_c_7 : Ref sig .tc := ⟨.hbm, 34, rfl⟩
abbrev main_c_8 : Ref sig .tc := ⟨.hbm, 35, rfl⟩
abbrev main_v17 : Ref sig .tc := ⟨.hbm, 36, rfl⟩
abbrev main_c_9 : Ref sig .tc := ⟨.hbm, 37, rfl⟩
abbrev main_v18 : Ref sig .tc := ⟨.hbm, 38, rfl⟩
abbrev main_v19 : Ref sig .tc := ⟨.hbm, 39, rfl⟩
abbrev main_c_10 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_v24 : Ref sig .tc := ⟨.hbm, 48, rfl⟩
abbrev main_v25 : Ref sig .tc := ⟨.hbm, 49, rfl⟩
abbrev main_c_11 : Ref sig .tc := ⟨.hbm, 50, rfl⟩
abbrev main_v26 : Ref sig .tc := ⟨.hbm, 51, rfl⟩
abbrev main_v27 : Ref sig .tc := ⟨.hbm, 52, rfl⟩
abbrev main_c_12 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_v32 : Ref sig .tc := ⟨.hbm, 61, rfl⟩
abbrev main_v33 : Ref sig .tc := ⟨.hbm, 62, rfl⟩
abbrev main_c_13 : Ref sig .tc := ⟨.hbm, 63, rfl⟩
abbrev main_v34 : Ref sig .tc := ⟨.hbm, 64, rfl⟩
abbrev main_v35 : Ref sig .tc := ⟨.hbm, 65, rfl⟩
abbrev main_c_14 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_v40 : Ref sig .tc := ⟨.hbm, 74, rfl⟩
abbrev main_v41 : Ref sig .tc := ⟨.hbm, 75, rfl⟩
abbrev main_c_15 : Ref sig .tc := ⟨.hbm, 76, rfl⟩
abbrev main_v42 : Ref sig .tc := ⟨.hbm, 77, rfl⟩
abbrev main_v43 : Ref sig .tc := ⟨.hbm, 78, rfl⟩
abbrev main_c_16 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call5_c : Ref sig .tc := ⟨.hbm, 84, rfl⟩
abbrev main_call5_v0 : Ref sig .tc := ⟨.hbm, 85, rfl⟩
abbrev main_call5_v1 : Ref sig .tc := ⟨.hbm, 86, rfl⟩
abbrev main_v48 : Ref sig .tc := ⟨.hbm, 87, rfl⟩
abbrev main_v49 : Ref sig .tc := ⟨.hbm, 88, rfl⟩
abbrev main_c_17 : Ref sig .tc := ⟨.hbm, 89, rfl⟩
abbrev main_v50 : Ref sig .tc := ⟨.hbm, 90, rfl⟩
abbrev main_v51 : Ref sig .tc := ⟨.hbm, 91, rfl⟩
abbrev main_c_18 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call6_c : Ref sig .tc := ⟨.hbm, 97, rfl⟩
abbrev main_call6_v0 : Ref sig .tc := ⟨.hbm, 98, rfl⟩
abbrev main_call6_v1 : Ref sig .tc := ⟨.hbm, 99, rfl⟩
abbrev main_v56 : Ref sig .tc := ⟨.hbm, 100, rfl⟩
abbrev main_v57 : Ref sig .tc := ⟨.hbm, 101, rfl⟩
abbrev main_c_19 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_20 : Ref sig .tc := ⟨.hbm, 114, rfl⟩
abbrev main_v69 : Ref sig .tc := ⟨.hbm, 115, rfl⟩
abbrev main_c_21 : Ref sig .tc := ⟨.hbm, 116, rfl⟩
abbrev main_v70 : Ref sig .tc := ⟨.hbm, 117, rfl⟩
abbrev main_v71 : Ref sig .tc := ⟨.hbm, 118, rfl⟩
abbrev main_c_22 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_23 : Ref sig .tc := ⟨.hbm, 123, rfl⟩
abbrev main_v75 : Ref sig .tc := ⟨.hbm, 124, rfl⟩
abbrev main_v76 : Ref sig .tc := ⟨.hbm, 125, rfl⟩
abbrev main_c_24 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x4096 : S_.BroadcastsInDim S1024x4096 (![] : Fin 0 → Fin S1024x4096.rank)
  bcast_S_S6 : S_.BroadcastsInDim S6 (![] : Fin 0 → Fin S6.rank)
  transposes_S16384x6_S6x16384_1_0 : S16384x6.Transposes [1, 0] S6x16384
  shapeCasts_S6x16384_S98304 : S6x16384.ShapeCasts S98304
  shapeCasts_S16384_S1x16384 : S16384.ShapeCasts S1x16384
  bcast_S1x16384_S6x16384_0_1 : S1x16384.BroadcastsInDim S6x16384 (![0, 1] : Fin 2 → Fin S6x16384.rank)
  bcast_S6_S6x16384_0 : S6.BroadcastsInDim S6x16384 (![0] : Fin 1 → Fin S6x16384.rank)
  bcast_S_S4096x16384 : S_.BroadcastsInDim S4096x16384 (![] : Fin 0 → Fin S4096x16384.rank)
  bcast_S_S98304 : S_.BroadcastsInDim S98304 (![] : Fin 0 → Fin S98304.rank)
  bcast_S98304_S98304x1_0 : S98304.BroadcastsInDim S98304x1 (![0] : Fin 1 → Fin S98304x1.rank)
  concatenates_S98304x1_S98304x1_S98304x2_d1 : Shape.Concatenates [S98304x1, S98304x1] S98304x2 1
  bitsLt_bf16_f32 : FTy.bits .bf16 < FTy.bits .f32
  transposes_S16384x64_S64x16384_1_0 : S16384x64.Transposes [1, 0] S64x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S64x512_o0_0_S1x512 : S64x512.Slices ![0, 0] S1x512
  shapeCasts_S1x512_S1x512 : S1x512.ShapeCasts S1x512
  broadcasts_S1x512_S1024x512 : S1x512.Broadcasts S1024x512
  slices_S64x512_o1_0_S1x512 : S64x512.Slices ![1, 0] S1x512
  slices_S64x512_o2_0_S1x512 : S64x512.Slices ![2, 0] S1x512
  slices_S64x512_o3_0_S1x512 : S64x512.Slices ![3, 0] S1x512
  slices_S64x512_o4_0_S1x512 : S64x512.Slices ![4, 0] S1x512
  slices_S64x512_o5_0_S1x512 : S64x512.Slices ![5, 0] S1x512
  slices_S64x512_o6_0_S1x512 : S64x512.Slices ![6, 0] S1x512
  slices_S64x512_o7_0_S1x512 : S64x512.Slices ![7, 0] S1x512
  slices_S64x512_o8_0_S1x512 : S64x512.Slices ![8, 0] S1x512
  slices_S64x512_o9_0_S1x512 : S64x512.Slices ![9, 0] S1x512
  slices_S64x512_o10_0_S1x512 : S64x512.Slices ![10, 0] S1x512
  slices_S64x512_o11_0_S1x512 : S64x512.Slices ![11, 0] S1x512
  slices_S64x512_o12_0_S1x512 : S64x512.Slices ![12, 0] S1x512
  slices_S64x512_o13_0_S1x512 : S64x512.Slices ![13, 0] S1x512
  slices_S64x512_o14_0_S1x512 : S64x512.Slices ![14, 0] S1x512
  slices_S64x512_o15_0_S1x512 : S64x512.Slices ![15, 0] S1x512
  slices_S64x512_o16_0_S1x512 : S64x512.Slices ![16, 0] S1x512
  slices_S64x512_o17_0_S1x512 : S64x512.Slices ![17, 0] S1x512
  slices_S64x512_o18_0_S1x512 : S64x512.Slices ![18, 0] S1x512
  slices_S64x512_o19_0_S1x512 : S64x512.Slices ![19, 0] S1x512
  slices_S64x512_o20_0_S1x512 : S64x512.Slices ![20, 0] S1x512
  slices_S64x512_o21_0_S1x512 : S64x512.Slices ![21, 0] S1x512
  slices_S64x512_o22_0_S1x512 : S64x512.Slices ![22, 0] S1x512
  slices_S64x512_o23_0_S1x512 : S64x512.Slices ![23, 0] S1x512
  slices_S64x512_o24_0_S1x512 : S64x512.Slices ![24, 0] S1x512
  slices_S64x512_o25_0_S1x512 : S64x512.Slices ![25, 0] S1x512
  slices_S64x512_o26_0_S1x512 : S64x512.Slices ![26, 0] S1x512
  slices_S64x512_o27_0_S1x512 : S64x512.Slices ![27, 0] S1x512
  slices_S64x512_o28_0_S1x512 : S64x512.Slices ![28, 0] S1x512
  slices_S64x512_o29_0_S1x512 : S64x512.Slices ![29, 0] S1x512
  slices_S64x512_o30_0_S1x512 : S64x512.Slices ![30, 0] S1x512
  slices_S64x512_o31_0_S1x512 : S64x512.Slices ![31, 0] S1x512
  slices_S64x512_o32_0_S1x512 : S64x512.Slices ![32, 0] S1x512
  slices_S64x512_o33_0_S1x512 : S64x512.Slices ![33, 0] S1x512
  slices_S64x512_o34_0_S1x512 : S64x512.Slices ![34, 0] S1x512
  slices_S64x512_o35_0_S1x512 : S64x512.Slices ![35, 0] S1x512
  slices_S64x512_o36_0_S1x512 : S64x512.Slices ![36, 0] S1x512
  slices_S64x512_o37_0_S1x512 : S64x512.Slices ![37, 0] S1x512
  slices_S64x512_o38_0_S1x512 : S64x512.Slices ![38, 0] S1x512
  slices_S64x512_o39_0_S1x512 : S64x512.Slices ![39, 0] S1x512
  slices_S64x512_o40_0_S1x512 : S64x512.Slices ![40, 0] S1x512
  slices_S64x512_o41_0_S1x512 : S64x512.Slices ![41, 0] S1x512
  slices_S64x512_o42_0_S1x512 : S64x512.Slices ![42, 0] S1x512
  slices_S64x512_o43_0_S1x512 : S64x512.Slices ![43, 0] S1x512
  slices_S64x512_o44_0_S1x512 : S64x512.Slices ![44, 0] S1x512
  slices_S64x512_o45_0_S1x512 : S64x512.Slices ![45, 0] S1x512
  slices_S64x512_o46_0_S1x512 : S64x512.Slices ![46, 0] S1x512
  slices_S64x512_o47_0_S1x512 : S64x512.Slices ![47, 0] S1x512
  slices_S64x512_o48_0_S1x512 : S64x512.Slices ![48, 0] S1x512
  slices_S64x512_o49_0_S1x512 : S64x512.Slices ![49, 0] S1x512
  slices_S64x512_o50_0_S1x512 : S64x512.Slices ![50, 0] S1x512
  slices_S64x512_o51_0_S1x512 : S64x512.Slices ![51, 0] S1x512
  slices_S64x512_o52_0_S1x512 : S64x512.Slices ![52, 0] S1x512
  slices_S64x512_o53_0_S1x512 : S64x512.Slices ![53, 0] S1x512
  slices_S64x512_o54_0_S1x512 : S64x512.Slices ![54, 0] S1x512
  slices_S64x512_o55_0_S1x512 : S64x512.Slices ![55, 0] S1x512
  slices_S64x512_o56_0_S1x512 : S64x512.Slices ![56, 0] S1x512
  slices_S64x512_o57_0_S1x512 : S64x512.Slices ![57, 0] S1x512
  slices_S64x512_o58_0_S1x512 : S64x512.Slices ![58, 0] S1x512
  slices_S64x512_o59_0_S1x512 : S64x512.Slices ![59, 0] S1x512
  slices_S64x512_o60_0_S1x512 : S64x512.Slices ![60, 0] S1x512
  slices_S64x512_o61_0_S1x512 : S64x512.Slices ![61, 0] S1x512
  slices_S64x512_o62_0_S1x512 : S64x512.Slices ![62, 0] S1x512
  slices_S64x512_o63_0_S1x512 : S64x512.Slices ![63, 0] S1x512
  inb_S1024x512_S1024x512_0_0 : ∀ a, (![0, 0] : Fin 2 → Nat) a + S1024x512.size a ≤ S1024x512.size a
  h_S1024x512 : 0 < S1024x512.numel
  scatter_S4096x16384_S98304x2_S98304_n_01_01_1_wf : ScatterDims.WF S4096x16384 S98304x2 S98304 [] [0, 1] [0, 1] 1
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x16384.size a
  hwx0_1 : ∀ i : grid0.Coords, EltTy.bits .bf16 = 32 ∨ (Rect.block (s := S4096x16384) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x16384.size a
  hwx0_2 : ∀ i : grid0.Coords, EltTy.bits .f32 = 32 ∨ (Rect.block (s := S64x16384) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x16384.size a
  hwx0_3 : ∀ i : grid0.Coords, EltTy.bits .f32 = 32 ∨ (Rect.block (s := S1024x16384) S1024x512.size (cc0_transform_3 i) (hinb0_3 i)).WholeWords (EltTy.packing .f32)

variable [Facts₀]

def scatter_S4096x16384_S98304x2_S98304_n_01_01_1 : ScatterDims S4096x16384 S98304x2 S98304 where
  updateWindowDims := []
  insertedWindowDims := [0, 1]
  scatterDimsToOperandDims := [0, 1]
  indexVectorDim := 1
  wf := scatter_S4096x16384_S98304x2_S98304_n_01_01_1_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v2) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v84) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v85) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v86) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S16384x64 : Shape := ⟨2, ![16384, 64]⟩
abbrev S16384x6 : Shape := ⟨2, ![16384, 6]⟩
abbrev S_ : Shape := ⟨0, ![]⟩
abbrev S16384x6x1 : Shape := ⟨3, ![16384, 6, 1]⟩
abbrev S1024x16384x6 : Shape := ⟨3, ![1024, 16384, 6]⟩
abbrev S6 : Shape := ⟨1, ![6]⟩
abbrev S1x1x6 : Shape := ⟨3, ![1, 1, 6]⟩
abbrev S1024x16384 : Shape := ⟨2, ![1024, 16384]⟩
abbrev S16384 : Shape := ⟨1, ![16384]⟩
abbrev S1x16384 : Shape := ⟨2, ![1, 16384]⟩
abbrev S1024x16384x1 : Shape := ⟨3, ![1024, 16384, 1]⟩
abbrev S1024x16384x2 : Shape := ⟨3, ![1024, 16384, 2]⟩

abbrev nBuf : Space → Nat
  | .hbm => 151
  | .vmem => 0
  | .smem => 0
  | _ => 0

abbrev hbmTy0_0 (i : Nat) : BufTy := match i % 128 with
  | 0 => ⟨S1024x4096, .f32⟩
  | 1 => ⟨S16384x64, .f32⟩
  | 2 => ⟨S16384x6, .i32⟩
  | 3 => ⟨S_, .f32⟩
  | 4 => ⟨S1024x4096, .f32⟩
  | 5 => ⟨S1024x4096, .i1⟩
  | 6 => ⟨S_, .i32⟩
  | 7 => ⟨S16384x6, .i32⟩
  | 8 => ⟨S16384x6, .i1⟩
  | 9 => ⟨S_, .i32⟩
  | 10 => ⟨S16384x6, .i32⟩
  | 11 => ⟨S16384x6, .i32⟩
  | 12 => ⟨S16384x6, .i32⟩
  | 13 => ⟨S16384x6x1, .i32⟩
  | 14 => ⟨S1024x16384x6, .i1⟩
  | 15 => ⟨S6, .i32⟩
  | 16 => ⟨S_, .i32⟩
  | 17 => ⟨S6, .i32⟩
  | 18 => ⟨S6, .i32⟩
  | 19 => ⟨S_, .i32⟩
  | 20 => ⟨S6, .i32⟩
  | 21 => ⟨S6, .i32⟩
  | 22 => ⟨S_, .i32⟩
  | 23 => ⟨S_, .i32⟩
  | 24 => ⟨S_, .i1⟩
  | 25 => ⟨S_, .i32⟩
  | 26 => ⟨S6, .i32⟩
  | 27 => ⟨S6, .i1⟩
  | 28 => ⟨S6, .i1⟩
  | 29 => ⟨S6, .i1⟩
  | 30 => ⟨S_, .i32⟩
  | 31 => ⟨S_, .i32⟩
  | 32 => ⟨S6, .i32⟩
  | 33 => ⟨S6, .i32⟩
  | 34 => ⟨S6, .i32⟩
  | 35 => ⟨S_, .i32⟩
  | 36 => ⟨S6, .i32⟩
  | 37 => ⟨S6, .i32⟩
  | 38 => ⟨S_, .i32⟩
  | 39 => ⟨S6, .i32⟩
  | 40 => ⟨S6, .i32⟩
  | 41 => ⟨S_, .i32⟩
  | 42 => ⟨S6, .i32⟩
  | 43 => ⟨S6, .i1⟩
  | 44 => ⟨S6, .i32⟩
  | 45 => ⟨S_, .i32⟩
  | 46 => ⟨S_, .i32⟩
  | 47 => ⟨S_, .i32⟩
  | 48 => ⟨S_, .i32⟩
  | 49 => ⟨S6, .i32⟩
  | 50 => ⟨S6, .i32⟩
  | 51 => ⟨S_, .i32⟩
  | 52 => ⟨S6, .i32⟩
  | 53 => ⟨S6, .i32⟩
  | 54 => ⟨S6, .i32⟩
  | 55 => ⟨S6, .i32⟩
  | 56 => ⟨S_, .i32⟩
  | 57 => ⟨S6, .i32⟩
  | 58 => ⟨S6, .i1⟩
  | 59 => ⟨S6, .i32⟩
  | 60 => ⟨S_, .i32⟩
  | 61 => ⟨S_, .i32⟩
  | 62 => ⟨S6, .i32⟩
  | 63 => ⟨S6, .i32⟩
  | 64 => ⟨S_, .i32⟩
  | 65 => ⟨S6, .i32⟩
  | 66 => ⟨S6, .i32⟩
  | 67 => ⟨S6, .i32⟩
  | 68 => ⟨S6, .i32⟩
  | 69 => ⟨S_, .i32⟩
  | 70 => ⟨S6, .i32⟩
  | 71 => ⟨S6, .i1⟩
  | 72 => ⟨S6, .i32⟩
  | 73 => ⟨S_, .i32⟩
  | 74 => ⟨S_, .i32⟩
  | 75 => ⟨S6, .i32⟩
  | 76 => ⟨S6, .i32⟩
  | 77 => ⟨S_, .i32⟩
  | 78 => ⟨S6, .i32⟩
  | 79 => ⟨S6, .i32⟩
  | 80 => ⟨S6, .i32⟩
  | 81 => ⟨S6, .i32⟩
  | 82 => ⟨S_, .i32⟩
  | 83 => ⟨S6, .i32⟩
  | 84 => ⟨S6, .i1⟩
  | 85 => ⟨S6, .i32⟩
  | 86 => ⟨S_, .i32⟩
  | 87 => ⟨S_, .i32⟩
  | 88 => ⟨S6, .i32⟩
  | 89 => ⟨S6, .i32⟩
  | 90 => ⟨S_, .i32⟩
  | 91 => ⟨S6, .i32⟩
  | 92 => ⟨S6, .i32⟩
  | 93 => ⟨S6, .i32⟩
  | 94 => ⟨S6, .i32⟩
  | 95 => ⟨S_, .i32⟩
  | 96 => ⟨S6, .i32⟩
  | 97 => ⟨S6, .i1⟩
  | 98 => ⟨S6, .i32⟩
  | 99 => ⟨S_, .i32⟩
  | 100 => ⟨S_, .i32⟩
  | 101 => ⟨S6, .i32⟩
  | 102 => ⟨S6, .i32⟩
  | 103 => ⟨S_, .i32⟩
  | 104 => ⟨S6, .i32⟩
  | 105 => ⟨S6, .i32⟩
  | 106 => ⟨S6, .i32⟩
  | 107 => ⟨S6, .i32⟩
  | 108 => ⟨S_, .i32⟩
  | 109 => ⟨S6, .i32⟩
  | 110 => ⟨S6, .i1⟩
  | 111 => ⟨S6, .i32⟩
  | 112 => ⟨S_, .i32⟩
  | 113 => ⟨S_, .i32⟩
  | 114 => ⟨S6, .i32⟩
  | 115 => ⟨S6, .i32⟩
  | 116 => ⟨S1024x16384x6, .i32⟩
  | 117 => ⟨S1x1x6, .i32⟩
  | 118 => ⟨S1024x16384x6, .i32⟩
  | 119 => ⟨S1024x16384x6, .i32⟩
  | 120 => ⟨S_, .i32⟩
  | 121 => ⟨S1024x16384, .i32⟩
  | 122 => ⟨S16384, .i32⟩
  | 123 => ⟨S1x16384, .i32⟩
  | 124 => ⟨S_, .i32⟩
  | 125 => ⟨S1x16384, .i32⟩
  | 126 => ⟨S1x16384, .i1⟩
  | 127 => ⟨S_, .i32⟩
  | _ => ⟨S1024x4096, .f32⟩

abbrev hbmTy0_1 (i : Nat) : BufTy := match i % 128 with
  | 0 => ⟨S1x16384, .i32⟩
  | 1 => ⟨S1x16384, .i32⟩
  | 2 => ⟨S1x16384, .i32⟩
  | 3 => ⟨S_, .i32⟩
  | 4 => ⟨S1024x16384, .i32⟩
  | 5 => ⟨S1024x16384, .i1⟩
  | 6 => ⟨S_, .i32⟩
  | 7 => ⟨S1024x16384, .i32⟩
  | 8 => ⟨S1024x16384, .i32⟩
  | 9 => ⟨S1024x16384, .i32⟩
  | 10 => ⟨S1024x16384, .i32⟩
  | 11 => ⟨S1024x16384x1, .i32⟩
  | 12 => ⟨S1024x16384x1, .i32⟩
  | 13 => ⟨S1024x16384x2, .i32⟩
  | 14 => ⟨S1024x16384, .f32⟩
  | 15 => ⟨S1024x16384, .f32⟩
  | 16 => ⟨S1024x16384, .f32⟩
  | 17 => ⟨S_, .f32⟩
  | 18 => ⟨S1024x16384, .f32⟩
  | 19 => ⟨S1024x16384, .f32⟩
  | 20 => ⟨S_, .f32⟩
  | 21 => ⟨S1024x16384, .f32⟩
  | 22 => ⟨S1024x16384, .f32⟩
  | _ => ⟨S1024x4096, .f32⟩

abbrev hbmTy (i : Nat) : BufTy := match i / 128 with
  | 0 => hbmTy0_0 i
  | 1 => hbmTy0_1 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_c_4 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_c_7 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_v23 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_v24 : Ref sig .tc := ⟨.hbm, 44, rfl⟩
abbrev main_c_10 : Ref sig .tc := ⟨.hbm, 45, rfl⟩
abbrev main_c_11 : Ref sig .tc := ⟨.hbm, 46, rfl⟩
abbrev main_v25 : Ref sig .tc := ⟨.hbm, 47, rfl⟩
abbrev main_c_12 : Ref sig .tc := ⟨.hbm, 48, rfl⟩
abbrev main_v26 : Ref sig .tc := ⟨.hbm, 49, rfl⟩
abbrev main_v27 : Ref sig .tc := ⟨.hbm, 50, rfl⟩
abbrev main_c_13 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_v32 : Ref sig .tc := ⟨.hbm, 59, rfl⟩
abbrev main_v33 : Ref sig .tc := ⟨.hbm, 60, rfl⟩
abbrev main_c_14 : Ref sig .tc := ⟨.hbm, 61, rfl⟩
abbrev main_v34 : Ref sig .tc := ⟨.hbm, 62, rfl⟩
abbrev main_v35 : Ref sig .tc := ⟨.hbm, 63, rfl⟩
abbrev main_c_15 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_v40 : Ref sig .tc := ⟨.hbm, 72, rfl⟩
abbrev main_v41 : Ref sig .tc := ⟨.hbm, 73, rfl⟩
abbrev main_c_16 : Ref sig .tc := ⟨.hbm, 74, rfl⟩
abbrev main_v42 : Ref sig .tc := ⟨.hbm, 75, rfl⟩
abbrev main_v43 : Ref sig .tc := ⟨.hbm, 76, rfl⟩
abbrev main_c_17 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_v48 : Ref sig .tc := ⟨.hbm, 85, rfl⟩
abbrev main_v49 : Ref sig .tc := ⟨.hbm, 86, rfl⟩
abbrev main_c_18 : Ref sig .tc := ⟨.hbm, 87, rfl⟩
abbrev main_v50 : Ref sig .tc := ⟨.hbm, 88, rfl⟩
abbrev main_v51 : Ref sig .tc := ⟨.hbm, 89, rfl⟩
abbrev main_c_19 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call5_c : Ref sig .tc := ⟨.hbm, 95, rfl⟩
abbrev main_call5_v0 : Ref sig .tc := ⟨.hbm, 96, rfl⟩
abbrev main_call5_v1 : Ref sig .tc := ⟨.hbm, 97, rfl⟩
abbrev main_v56 : Ref sig .tc := ⟨.hbm, 98, rfl⟩
abbrev main_v57 : Ref sig .tc := ⟨.hbm, 99, rfl⟩
abbrev main_c_20 : Ref sig .tc := ⟨.hbm, 100, rfl⟩
abbrev main_v58 : Ref sig .tc := ⟨.hbm, 101, rfl⟩
abbrev main_v59 : Ref sig .tc := ⟨.hbm, 102, rfl⟩
abbrev main_c_21 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_v64 : Ref sig .tc := ⟨.hbm, 111, rfl⟩
abbrev main_v65 : Ref sig .tc := ⟨.hbm, 112, rfl⟩
abbrev main_c_22 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_23 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_24 : Ref sig .tc := ⟨.hbm, 124, rfl⟩
abbrev main_v75 : Ref sig .tc := ⟨.hbm, 125, rfl⟩
abbrev main_v76 : Ref sig .tc := ⟨.hbm, 126, rfl⟩
abbrev main_c_25 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_26 : Ref sig .tc := ⟨.hbm, 131, rfl⟩
abbrev main_v80 : Ref sig .tc := ⟨.hbm, 132, rfl⟩
abbrev main_v81 : Ref sig .tc := ⟨.hbm, 133, rfl⟩
abbrev main_c_27 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_28 : Ref sig .tc := ⟨.hbm, 145, rfl⟩
abbrev main_v92 : Ref sig .tc := ⟨.hbm, 146, rfl⟩
abbrev main_v93 : Ref sig .tc := ⟨.hbm, 147, rfl⟩
abbrev main_cst_29 : Ref sig .tc := ⟨.hbm, 148, rfl⟩
abbrev main_v94 : Ref sig .tc := ⟨.hbm, 149, rfl⟩
abbrev main_v95 : Ref sig .tc := ⟨.hbm, 150, rfl⟩

abbrev nD : Nat := 1
abbrev τ : Topo := Topo.v7x

variable {F : FTy → Type} [FloatOps F]

class Facts₀ : Prop where
  bcast_S_S1024x4096 : S_.BroadcastsInDim S1024x4096 (![] : Fin 0 → Fin S1024x4096.rank)
  bcast_S_S16384x6 : S_.BroadcastsInDim S16384x6 (![] : Fin 0 → Fin S16384x6.rank)
  bcast_S16384x6_S16384x6x1_0_1 : S16384x6.BroadcastsInDim S16384x6x1 (![0, 1] : Fin 2 → Fin S16384x6x1.rank)
  bcast_S_S6 : S_.BroadcastsInDim S6 (![] : Fin 0 → Fin S6.rank)
  natLt_1_32 : 1 < 32
  bcast_S6_S1x1x6_2 : S6.BroadcastsInDim S1x1x6 (![2] : Fin 1 → Fin S1x1x6.rank)
  bcast_S1x1x6_S1024x16384x6_0_1_2 : S1x1x6.BroadcastsInDim S1024x16384x6 (![0, 1, 2] : Fin 3 → Fin S1024x16384x6.rank)
  reducesTo_S1024x16384x6_S1024x16384_d2 : S1024x16384x6.ReducesTo [2] S1024x16384
  h_S_ : 0 < S_.numel
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S_S1024x16384 : S_.BroadcastsInDim S1024x16384 (![] : Fin 0 → Fin S1024x16384.rank)
  bcast_S1x16384_S1024x16384_0_1 : S1x16384.BroadcastsInDim S1024x16384 (![0, 1] : Fin 2 → Fin S1024x16384.rank)
  bcast_S1024x16384_S1024x16384x1_0_1 : S1024x16384.BroadcastsInDim S1024x16384x1 (![0, 1] : Fin 2 → Fin S1024x16384x1.rank)
  concatenates_S1024x16384x1_S1024x16384x1_S1024x16384x2_d2 : Shape.Concatenates [S1024x16384x1, S1024x16384x1] S1024x16384x2 2
  gather_S1024x4096_S16384x6x1_S1024x16384x6_0_1_n_n_1_2_10241_wf : GatherDims.WF S1024x4096 S16384x6x1 S1024x16384x6 [0] [1] [] [1] [] 2 ![1024, 1]
  gather_S16384x64_S1024x16384x2_S1024x16384_n_01_n_n_01_2_11_wf : GatherDims.WF S16384x64 S1024x16384x2 S1024x16384 [] [0, 1] [] [0, 1] [] 2 ![1, 1]

variable [Facts₀]

def gather_S1024x4096_S16384x6x1_S1024x16384x6_0_1_n_n_1_2_10241 : GatherDims S1024x4096 S16384x6x1 S1024x16384x6 where
  offsetDims := [0]
  collapsedSliceDims := [1]
  operandBatchingDims := []
  startIndicesBatchingDims := []
  startIndexMap := [1]
  indexVectorDim := 2
  sliceSizes := ![1024, 1]
  wf := gather_S1024x4096_S16384x6x1_S1024x16384x6_0_1_n_n_1_2_10241_wf
def gather_S16384x64_S1024x16384x2_S1024x16384_n_01_n_n_01_2_11 : GatherDims S16384x64 S1024x16384x2 S1024x16384 where
  offsetDims := []
  collapsedSliceDims := [0, 1]
  operandBatchingDims := []
  startIndicesBatchingDims := []
  startIndexMap := [0, 1]
  indexVectorDim := 2
  sliceSizes := ![1, 1]
  wf := gather_S16384x64_S1024x16384x2_S1024x16384_n_01_n_n_01_2_11_wf

class Facts : Prop extends Facts₀ where

variable [Facts]
-- ==== Proof.KWDef.lean ====
import proofs.«425095_j47828755808728_2_alg».proof.KernelIdeal
import Idealize.ShloMosaic.PureOps.Ideal

noncomputable section

namespace Cert.KernelIdeal.Host

open Cert.KernelIdeal Cert.KernelIdeal.Facts₀ Idealize.ShloMosaic

variable [Facts₀]

/-- The row component of the 98304 scatter index pairs: the wiring array transposed and flattened (entry k·16384 + l is
    conn[l, k]), a negative entry wrapped by 4096. -/
def rowsOf (conn : IVec S16384x6 32) : IVec S98304 32 :=
  have r : IVec S98304 32 :=
    shapeCast S98304 (transpose S6x16384 [1, 0] conn transposes_S16384x6_S6x16384_1_0) shapeCasts_S6x16384_S98304
  select (cmpi .slt r (broadcastInDim S98304 ![] bcast_S_S98304 (constantI S_ 32 0#32)))
    (addi r (broadcastInDim S98304 ![] bcast_S_S98304 (constantI S_ 32 4096#32))) r

/-- The column component: the LUT number l repeated for each of the six bit positions (entry k·16384 + l is l). -/
def colsOf : IVec S98304 32 :=
  have q : IVec S98304 32 :=
    shapeCast S98304 (broadcastInDim S6x16384 ![0, 1] bcast_S1x16384_S6x16384_0_1
      (shapeCast S1x16384 (iotaInDim S16384 32 0) shapeCasts_S16384_S1x16384)) shapeCasts_S6x16384_S98304
  select (cmpi .slt q (broadcastInDim S98304 ![] bcast_S_S98304 (constantI S_ 32 0#32)))
    (addi q (broadcastInDim S98304 ![] bcast_S_S98304 (constantI S_ 32 16384#32))) q

/-- The [98304, 2] array of (row, column) pairs. -/
def pairsOf (conn : IVec S16384x6 32) : IVec S98304x2 32 :=
  concatenate S98304x2 1
    [⟨S98304x1, broadcastInDim S98304x1 ![0] bcast_S98304_S98304x1_0 (rowsOf conn)⟩,
     ⟨S98304x1, broadcastInDim S98304x1 ![0] bcast_S98304_S98304x1_0 colsOf⟩]
    concatenates_S98304x1_S98304x1_S98304x2_d1

variable {F : FTy → Type} [FloatOps F]

/-- The 98304 update values: the weight vector `P` (six integer words) as floats, entry k·16384 + l being P[k]. -/
def valsOf (P : IVec S6 32) : FVec F S98304 .f32 :=
  shapeCast S98304 (broadcastInDim S6x16384 ![0] bcast_S6_S6x16384_0 (sitofp .f32 P)) shapeCasts_S6x16384_S98304

/-- The selector matrix the kernel multiplies by: the accumulating scatter of the update values at the index pairs
    into a zero 4096 × 16384 array, narrowed to bf16. -/
def selector (P : IVec S6 32) (conn : IVec S16384x6 32) : FVec F S4096x16384 .bf16 :=
  truncf .bf16 (Host.scatterAdd scatter_S4096x16384_S98304x2_S98304_n_01_01_1
      (broadcastInDim S4096x16384 ![] bcast_S_S4096x16384 (constant S_ .f32 0x00000000#32)) (pairsOf conn) (valsOf P))
    bitsLt_bf16_f32

end Cert.KernelIdeal.Host

end
-- ==== Proof.KHost.lean ====
import proofs.«425095_j47828755808728_2_alg».proof.Proof.Gen.KernelIdeal.Frame
import proofs.«425095_j47828755808728_2_alg».proof.Proof.KWDef
import Idealize.ShloMosaic.Lib.StableHlo.Run
import Idealize.ShloMosaic.Lib.Pipeline.Frame
import Idealize.ShloMosaic.PureOps.Ideal

/-!
  What the region finds in its three input arrays, as functions of the program's arguments: the host operations before
  the launch threshold the first argument to 0/1 (as bf16), build the selector matrix from the wiring array by an
  accumulating scatter of the weight vector, and transpose the table.
-/

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 100000 in
/-- The first input array: 1 where the argument exceeds one half, else 0. -/
theorem V_bits (c : Dev nD) :
    (V m c main_v2 : (⟨S1024x4096, .bf16⟩ : BufTy).Contents (Elt Ideal))
      = uitofp (F := Ideal) .bf16 (cmpf (F := Ideal) .ogt (m ((c : Thread nD τ).loc main_arg0))
          (broadcastInDim S1024x4096 ![] bcast_S_S1024x4096 (constant (F := Ideal) S_ .f32 0x3F000000#32))) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp

set_option maxHeartbeats 4000000 in
set_option maxRecDepth 100000 in
/-- The third input array: the table transposed. -/
theorem V_tblT (c : Dev nD) :
    (V m c main_v85 : (⟨S64x16384, .f32⟩ : BufTy).Contents (Elt Ideal))
      = transpose S64x16384 [1, 0] (m ((c : Thread nD τ).loc main_arg1)) transposes_S16384x64_S64x16384_1_0 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp

set_option maxHeartbeats 8000000 in
set_option maxRecDepth 100000 in
/-- The second input array: the selector matrix built from the weight vector (as the host left it) and the wiring array. -/
theorem V_sel (c : Dev nD) :
    (V m c main_v84 : (⟨S4096x16384, .bf16⟩ : BufTy).Contents (Elt Ideal))
      = selector (F := Ideal) (V m c main_v56) (m ((c : Thread nD τ).loc main_arg2)) := by
  have split : List.flatten [hostOps0, hostOps0_1, hostOps0_2, hostOps0_3, hostOps0_4, hostOps0_5, hostOps0_6, hostOps0_7, hostOps0_8, hostOps0_9, hostOps0_10, hostOps0_11, hostOps0_12, hostOps0_13, hostOps0_14 (F := Ideal)]
      = List.flatten [hostOps0, hostOps0_1, hostOps0_2, hostOps0_3, hostOps0_4, hostOps0_5, hostOps0_6, hostOps0_7, hostOps0_8, hostOps0_9, hostOps0_10, hostOps0_11, hostOps0_12, hostOps0_13] ++ hostOps0_14 := by
    simp only [List.flatten_cons, List.flatten_nil, List.append_nil, List.append_assoc]
  dsimp only [Gen.V]
  rw [split, StableHlo.after_append]
  have e2 : StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b)) (Proc.devRef .tc main_arg2)
      = m ((c : Thread nD τ).loc main_arg2) := by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
    after_results_simp
  generalize StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b)) = W at e2 ⊢
  have e56 : StableHlo.after (hostOps0_14 (F := Ideal)) W (Proc.devRef .tc main_v56) = W (Proc.devRef .tc main_v56) := by
    simp only [hostOps0_14]
    after_results_simp
  rw [e56]
  simp only [hostOps0_14]
  after_results
  rw [e2]
  rfl

end Cert.KernelIdeal.Host

end
-- ==== Proof.KPow.lean ====
import proofs.«425095_j47828755808728_2_alg».proof.Proof.Gen.KernelIdeal.Frame
import Idealize.ShloMosaic.Lib.StableHlo.Run
import Idealize.ShloMosaic.PureOps.Ideal
import Idealize.ShloMosaic.Lib.ValueIdx

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- Integer vector operations read at an index act on the elements there. -/
private theorem cmpi_at {s : Shape} {w : Nat} (p : CmpIPredicate) (x y : IVec s w) (i : s.Idx) :
    cmpi p x y i = IntOp.cmpi p (x i) (y i) := rfl
private theorem andi_at {s : Shape} {w : Nat} (x y : IVec s w) (i : s.Idx) : andi x y i = IntOp.andi (x i) (y i) := rfl
private theorem muli_at {s : Shape} {w : Nat} (x y : IVec s w) (i : s.Idx) : muli x y i = IntOp.muli (x i) (y i) := rfl
private theorem subi_at {s : Shape} {w : Nat} (x y : IVec s w) (i : s.Idx) : subi x y i = IntOp.subi (x i) (y i) := rfl
private theorem shrui_at {s : Shape} {w : Nat} (x y : IVec s w) (i : s.Idx) :
    Host.shrui x y i = IntOp.shrui .host (x i) (y i) := rfl
private theorem constantI_at {s : Shape} {w : Nat} (v : BitVec w) (i : s.Idx) : constantI s w v i = v := rfl
private theorem iota_at (i : S6.Idx) : iotaInDim S6 32 0 i = BitVec.ofNat 32 (i 0).val := rfl

set_option maxRecDepth 100000 in
set_option maxHeartbeats 4000000 in
/-- The weight vector the host computes before the region — 2 raised to (5 − iota) by square-and-multiply on six-entry
    integer vectors, no input involved — holds the powers 32, 16, 8, 4, 2, 1. -/
theorem V_pow (c : Dev nD) (k : Fin 6) :
    (V m c main_v56 : (⟨S6, .i32⟩ : BufTy).Contents (Elt Ideal)) (ix1 k) = BitVec.ofNat 32 (2 ^ (5 - k.val)) := by
  -- the contents after the host operations, as one closed term of vector operations
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [TRef.ofBuf, TRef.toBuf, cast_eq]
  change @Eq (BitVec 32) _ _
  -- entry by entry: every operation read at the entry, leaving arithmetic on literal 32-bit words
  fin_cases k <;>
  · simp only [broadcastInDim, select_apply, cmpi_at, andi_at, muli_at, subi_at, shrui_at, iota_at, constantI_at]
    decide

end Cert.KernelIdeal.Host

end
-- ==== Proof.KScatter.lean ====
import proofs.«425095_j47828755808728_2_alg».proof.KernelIdeal
import Idealize.ShloMosaic.PureOps.Ideal
import Idealize.ShloMosaic.PureOps.Ideal.Laws
import Idealize.ShloMosaic.Lib.ValueIdx

noncomputable section

open scoped BigOperators

namespace Cert.KernelIdeal.Scatter

open Cert.KernelIdeal Idealize.ShloMosaic Idealize.ShloMosaic.ValueIdx

variable [Facts₀]

local notation "dS" => scatter_S4096x16384_S98304x2_S98304_n_01_01_1

/-- The index-array position that holds the ROW component of update `j`'s target: row `j`, column 0. -/
theorem siIdx0 (j : S98304.Idx) (h) :
    (dS).siIdx j ⟨List.idxOf (0 : Fin S4096x16384.rank) (dS).scatterDimsToOperandDims, h⟩ = ix2 (j 0) (0 : Fin 2) := by
  funext b; refine Fin.ext ?_
  match b with
  | ⟨0, _⟩ => rfl
  | ⟨1, _⟩ => rfl

/-- The index-array position that holds the COLUMN component of update `j`'s target: row `j`, column 1. -/
theorem siIdx1 (j : S98304.Idx) (h) :
    (dS).siIdx j ⟨List.idxOf (1 : Fin S4096x16384.rank) (dS).scatterDimsToOperandDims, h⟩ = ix2 (j 0) (1 : Fin 2) := by
  funext b; refine Fin.ext ?_
  match b with
  | ⟨0, _⟩ => rfl
  | ⟨1, _⟩ => rfl

/-- The window start on the operand's row axis: the signed row component of the index pair. -/
theorem start0 (idx : IVec S98304x2 32) (j : S98304.Idx) :
    (dS).start j idx (0 : Fin S4096x16384.rank) = (idx (ix2 (j 0) (0 : Fin 2))).toInt := by
  unfold ScatterDims.start
  rw [dif_pos (show (0 : Fin S4096x16384.rank) ∈ (dS).scatterDimsToOperandDims from
    (by decide : (0 : Fin 2) ∈ ([0, 1] : List (Fin 2)))), siIdx0]
  rfl

/-- The window start on the operand's column axis: the signed column component of the index pair. -/
theorem start1 (idx : IVec S98304x2 32) (j : S98304.Idx) :
    (dS).start j idx (1 : Fin S4096x16384.rank) = (idx (ix2 (j 0) (1 : Fin 2))).toInt := by
  unfold ScatterDims.start
  rw [dif_pos (show (1 : Fin S4096x16384.rank) ∈ (dS).scatterDimsToOperandDims from
    (by decide : (1 : Fin 2) ∈ ([0, 1] : List (Fin 2)))), siIdx1]
  rfl

/-- Both operand axes are inserted window axes (an update is one scalar), so the window coordinate is 0 on each. -/
theorem window_eq (j : S98304.Idx) (a : Fin S4096x16384.rank) : (dS).window j a = 0 := by
  unfold ScatterDims.window
  match a with
  | ⟨0, _⟩ =>
    exact dif_neg (show (0 : Fin S4096x16384.rank) ∉ (dS).sKept from
      (by decide : (0 : Fin 2) ∉ S4096x16384.kept [0, 1]))
  | ⟨1, _⟩ =>
    exact dif_neg (show (1 : Fin S4096x16384.rank) ∉ (dS).sKept from
      (by decide : (1 : Fin 2) ∉ S4096x16384.kept [0, 1]))

/-- Where update `j` of the 98304 lands in the 4096 × 16384 operand: at the (row, column) pair the index array holds
    in its row `j`, each component read signed and not clamped — and nowhere when the pair lies outside the operand. -/
theorem resultIdx?_eq_some (idx : IVec S98304x2 32) (j : S98304.Idx) (i : S4096x16384.Idx) :
    scatter_S4096x16384_S98304x2_S98304_n_01_01_1.resultIdx? j idx = some i ↔
      (idx (ix2 (j 0) (0 : Fin 2))).toInt = ((i 0).val : ℤ) ∧ (idx (ix2 (j 0) (1 : Fin 2))).toInt = ((i 1).val : ℤ) := by
  unfold ScatterDims.resultIdx?
  split
  · -- the pair is inside the operand: the landing index is the pair itself, so compare componentwise
    rename_i h
    rw [Option.some.injEq]
    constructor
    · intro hi
      have h0 := congrArg (fun f => (f 0).val) hi
      have h1 := congrArg (fun f => (f 1).val) hi
      have g0 := h 0
      have g1 := h 1
      simp only [window_eq, start0, start1, Nat.cast_zero, add_zero] at h0 h1 g0 g1
      omega
    · rintro ⟨h0, h1⟩
      funext a
      refine Fin.ext ?_
      match a with
      | ⟨0, _⟩ =>
        show ((dS).start j idx 0 + ((dS).window j 0 : ℤ)).toNat = (i 0).val
        rw [start0, window_eq, h0]; simp
      | ⟨1, _⟩ =>
        show ((dS).start j idx 1 + ((dS).window j 1 : ℤ)).toNat = (i 1).val
        rw [start1, window_eq, h1]; simp
  · -- the pair is outside the operand: it cannot equal an operand index, whose components are in range
    rename_i h
    constructor
    · intro hi; exact absurd hi (by simp)
    · rintro ⟨h0, h1⟩
      refine absurd ?_ h
      intro a
      match a with
      | ⟨0, _⟩ =>
        show 0 ≤ (dS).start j idx 0 + ((dS).window j 0 : ℤ) ∧
          (dS).start j idx 0 + ((dS).window j 0 : ℤ) < (S4096x16384.size 0 : ℕ)
        rw [start0, window_eq, h0]
        have := (i 0).isLt
        exact ⟨by omega, by simpa using this⟩
      | ⟨1, _⟩ =>
        show 0 ≤ (dS).start j idx 1 + ((dS).window j 1 : ℤ) ∧
          (dS).start j idx 1 + ((dS).window j 1 : ℤ) < (S4096x16384.size 1 : ℕ)
        rw [start1, window_eq, h1]
        have := (i 1).isLt
        exact ⟨by omega, by simpa using this⟩

/-- The accumulating scatter into a zero array, read at one element on the extended reals: the sum of the updates whose
    index pair is that element. -/
theorem scatterAdd_zero_apply (idx : IVec S98304x2 32) (upd : FVec Ideal S98304 .f32) (i : S4096x16384.Idx) :
    Host.scatterAdd (F := Ideal) scatter_S4096x16384_S98304x2_S98304_n_01_01_1
        (broadcastInDim S4096x16384 ![] Facts₀.bcast_S_S4096x16384 (constant (F := Ideal) S_ .f32 0x00000000#32)) idx upd i
      = ∑ j ∈ Finset.univ.filter (fun j : S98304.Idx =>
            (idx (ix2 (j 0) (0 : Fin 2))).toInt = ((i 0).val : ℤ) ∧ (idx (ix2 (j 0) (1 : Fin 2))).toInt = ((i 1).val : ℤ)),
          (upd j : EReal) := by
  show Ideal.hostScatterAdd _ _ _ _ i = _
  unfold Ideal.hostScatterAdd
  -- the operand is the all-zero array: the broadcast scalar constant with the bit pattern of +0
  have hz : broadcastInDim S4096x16384 ![] Facts₀.bcast_S_S4096x16384
      (constant (F := Ideal) S_ .f32 0x00000000#32) i = (0 : EReal) := by
    show Ideal.ofBits .f32 0x00000000#32 = 0
    exact Ideal.ofBits_zero_f32
  rw [hz, zero_add]
  exact Finset.sum_congr (Finset.filter_congr (fun j _ => resultIdx?_eq_some idx j i)) (fun _ _ => rfl)

end Cert.KernelIdeal.Scatter

end
-- ==== Proof.LutSpec.lean ====
/-
  The lookup-table layer as ONE function of its three argument arrays, index by index, on the extended reals.

  A batch row `b` of `x : [1024, 4096]` is thresholded to bits (`x[b, i] > 1/2`). LUT `l` of 16384 is wired to six of the
  4096 columns by `conn : [16384, 6]`; the six bits it sees, most significant first, form an address
  `addr = ∑ k, 2^(5-k) · bit (conn[l, k])` in `[0, 64)`, and the layer's output is the logistic function of the table
  entry `tbl[l, addr]`. Both programs compute this function: one gathers the bits and the table entry, the other
  builds a 4096 × 16384 selector matrix and multiplies.
-/
import Idealize.ShloMosaic.PureOps.Ideal
import Idealize.ShloMosaic.Lib.ValueIdx

noncomputable section

open scoped BigOperators

namespace Cert.Lut

open Idealize.ShloMosaic Idealize.ShloMosaic.ValueIdx

abbrev SX : Shape := ⟨2, ![1024, 4096]⟩
abbrev ST : Shape := ⟨2, ![16384, 64]⟩
abbrev SC : Shape := ⟨2, ![16384, 6]⟩
abbrev SO : Shape := ⟨2, ![1024, 16384]⟩

/-- Every wiring entry, read as a signed integer, names one of the 4096 columns. -/
def InRange (conn : IVec SC 32) : Prop :=
  ∀ (l : Fin 16384) (k : Fin 6), 0 ≤ (conn (ix2 l k)).toInt ∧ (conn (ix2 l k)).toInt < 4096

/-- The thresholded bit of `x` at row `b`, column `i`, as a one-bit word: `x[b, i] > 1/2`. -/
def bitW (x : FVec Ideal SX .f32) (b : Fin 1024) (i : Fin 4096) : BitVec 1 :=
  FloatOps.cmpf (F := Ideal) (φ := .f32) .ogt (x (ix2 b i)) (FloatOps.ofBits (F := Ideal) .f32 0x3F000000#32)

/-- The column LUT `l` reads for its `k`-th bit (the wiring entry, capped at the last column). -/
def col (conn : IVec SC 32) (l : Fin 16384) (k : Fin 6) : Fin 4096 :=
  ⟨min (conn (ix2 l k)).toInt.toNat 4095, by omega⟩

/-- The address LUT `l` forms on batch row `b`: its six bits, most significant first. -/
def addr (x : FVec Ideal SX .f32) (conn : IVec SC 32) (b : Fin 1024) (l : Fin 16384) : ℕ :=
  ∑ k : Fin 6, 2 ^ (5 - k.val) * (bitW x b (col conn l k)).toNat

/-- Six bits address 64 entries. -/
theorem addr_lt (x : FVec Ideal SX .f32) (conn : IVec SC 32) (b : Fin 1024) (l : Fin 16384) : addr x conn b l < 64 := by
  unfold addr
  rw [Fin.sum_univ_six]
  have h := fun k => (bitW x b (col conn l k)).isLt
  have h0 := h 0; have h1 := h 1; have h2 := h 2; have h3 := h 3; have h4 := h 4; have h5 := h 5
  simp only [Fin.val_zero, Fin.val_one, Fin.val_two] at *
  show 2 ^ (5 - 0) * _ + 2 ^ (5 - 1) * _ + 2 ^ (5 - 2) * _ + 2 ^ (5 - 3) * _ + 2 ^ (5 - 4) * _ + 2 ^ (5 - 5) * _ < 64
  norm_num
  omega

/-- The layer's output at batch row `b`, LUT `l`. -/
def lut (x : FVec Ideal SX .f32) (tbl : FVec Ideal ST .f32) (conn : IVec SC 32) (b : Fin 1024) (l : Fin 16384) : EReal :=
  Ideal.logistic (tbl (ix2 l (⟨addr x conn b l, addr_lt x conn b l⟩ : Fin 64)))

/-- The layer's whole output array. -/
def G (x : FVec Ideal SX .f32) (tbl : FVec Ideal ST .f32) (conn : IVec SC 32) : FVec Ideal SO .f32 :=
  fun j => lut x tbl conn (j 0) (j 1)

theorem G_apply (x : FVec Ideal SX .f32) (tbl : FVec Ideal ST .f32) (conn : IVec SC 32) (b : Fin 1024) (l : Fin 16384) :
    G x tbl conn (ix2 b l) = lut x tbl conn b l := rfl

end Cert.Lut

end
-- ==== Proof.LutAlgebra.lean ====
import proofs.«425095_j47828755808728_2_alg».proof.Proof.LutSpec

noncomputable section

open scoped BigOperators

namespace Cert.Lut

open Idealize.ShloMosaic Idealize.ShloMosaic.ValueIdx

/-- Entry (i, l) of the selector matrix: the sum of the powers of two 2^(5-k) over the bit positions `k` that LUT `l`
    wires to column `i` (several positions may share a column; their weights add). -/
def selW (conn : IVec SC 32) (l : Fin 16384) (i : Fin 4096) : ℕ :=
  ∑ k ∈ Finset.univ.filter (fun k : Fin 6 => col conn l k = i), 2 ^ (5 - k.val)

/-- A row of bits against a column of the selector matrix: summing over the 4096 columns regroups into the six
    wired positions, each bit weighted by its power of two — the address. -/
theorem sum_bits_selW (β : Fin 4096 → ℕ) (conn : IVec SC 32) (l : Fin 16384) :
    ∑ i : Fin 4096, β i * selW conn l i = ∑ k : Fin 6, 2 ^ (5 - k.val) * β (col conn l k) := by
  unfold selW
  simp only [Finset.mul_sum, Finset.sum_filter]
  rw [Finset.sum_comm]
  refine Finset.sum_congr rfl fun k _ => ?_
  simp only [mul_ite, mul_zero]
  rw [Finset.sum_ite_eq, if_pos (Finset.mem_univ _), mul_comm]

/-- On the extended reals a finite sum of products of natural numbers is the natural number's image. -/
theorem ereal_sum_mul_natCast {n : ℕ} (f g : Fin n → ℕ) :
    ∑ i : Fin n, ((f i : ℝ) : EReal) * ((g i : ℝ) : EReal) = (((∑ i : Fin n, f i * g i : ℕ) : ℝ) : EReal) := by
  have hsum : ∀ (s : Finset (Fin n)) (h : Fin n → ℝ), ∑ i ∈ s, ((h i : ℝ) : EReal) = ((∑ i ∈ s, h i : ℝ) : EReal) := by
    intro s h
    induction s using Finset.induction_on with
    | empty => simp
    | insert a s ha ih => rw [Finset.sum_insert ha, Finset.sum_insert ha, EReal.coe_add, ih]
  simp only [← EReal.coe_mul]
  rw [hsum]
  congr 1
  push_cast
  rfl

/-- The matrix product at (b, l), over the extended reals: the thresholded bits of row `b` (0 or 1) against column
    `l` of the selector matrix is the address LUT `l` forms on row `b`. -/
theorem acc_eq_addr (x : FVec Ideal SX .f32) (conn : IVec SC 32) (b : Fin 1024) (l : Fin 16384) :
    ∑ i : Fin 4096, (((bitW x b i).toNat : ℝ) : EReal) * (((selW conn l i : ℕ) : ℝ) : EReal)
      = (((addr x conn b l : ℕ) : ℝ) : EReal) := by
  have h : (∑ i : Fin 4096, (bitW x b i).toNat * selW conn l i) = addr x conn b l :=
    sum_bits_selW (fun i => (bitW x b i).toNat) conn l
  rw [← h]
  exact ereal_sum_mul_natCast (fun i => (bitW x b i).toNat) (fun i => selW conn l i)

end Cert.Lut

end
-- ==== Proof.KSelector.lean ====
import proofs.«425095_j47828755808728_2_alg».proof.Proof.KWDef
import proofs.«425095_j47828755808728_2_alg».proof.Proof.KScatter
import proofs.«425095_j47828755808728_2_alg».proof.Proof.LutAlgebra
import Idealize.ShloMosaic.PureOps.Ideal
import Idealize.ShloMosaic.PureOps.Ideal.Laws
import Idealize.ShloMosaic.Lib.ValueIdx
import Idealize.ShloMosaic.Lib.Pipeline.Value
import Idealize.ShloMosaic.Lib.DynamicIndex

noncomputable section

open scoped BigOperators

namespace Cert.KernelIdeal.Host

open Cert.KernelIdeal Cert.KernelIdeal.Facts₀ Cert.Lut Idealize.ShloMosaic Idealize.ShloMosaic.ValueIdx

variable [Facts₀]

/-- Update index k·16384 + l' of the 98304: the row-major position of (k, l') in a 6 × 16384 array. -/
def jOf (k : Fin 6) (l' : Fin 16384) : S98304.Idx :=
  ix1 (⟨k.val * 16384 + l'.val, by have := k.isLt; have := l'.isLt; omega⟩ : Fin 98304)

/-- Every update index is k·16384 + l' for its quotient and remainder by 16384. -/
theorem exists_jOf (j : S98304.Idx) : ∃ (k : Fin 6) (l' : Fin 16384), j = jOf k l' := by
  have hj : (j 0).val < 98304 := (j 0).isLt
  refine ⟨⟨(j 0).val / 16384, by omega⟩, ⟨(j 0).val % 16384, by omega⟩, ?_⟩
  have e : j 0 = (⟨(j 0).val / 16384 * 16384 + (j 0).val % 16384, by omega⟩ : Fin 98304) :=
    Fin.ext (by show (j 0).val = (j 0).val / 16384 * 16384 + (j 0).val % 16384; omega)
  exact (eq_ix1 j).trans (congrArg ix1 e)

/-- The flattening of a 6 × 16384 array read at k·16384 + l' is the array at (k, l'). -/
theorem flat_apply {α : Type} (x : S6x16384.Idx → α) (k : Fin 6) (l' : Fin 16384) :
    shapeCast S98304 x shapeCasts_S6x16384_S98304 (jOf k l') = x (ix2 k l') := by
  refine shapeCast_apply x _ _ _ ?_
  rw [Shape.rowMajor_val_two, Shape.rowMajor_val_one]
  rfl

/-- A select on "negative, read signed" against the broadcast zero keeps the entry where it is not negative. -/
theorem select_neg_bcast {α : Type} (r : IVec S98304 32) (a b : S98304.Idx → α) (j : S98304.Idx) (h : 0 ≤ (r j).toInt) :
    select (cmpi .slt r (broadcastInDim S98304 ![] bcast_S_S98304 (constantI S_ 32 0#32))) a b j = b j :=
  select_slt_zero_of_nonneg r a b j h

/-- The transposed and flattened wiring array at k·16384 + l' is the wiring entry (l', k). -/
theorem rowsRaw_apply (conn : IVec S16384x6 32) (k : Fin 6) (l' : Fin 16384) :
    shapeCast S98304 (transpose S6x16384 [1, 0] conn transposes_S16384x6_S6x16384_1_0) shapeCasts_S6x16384_S98304 (jOf k l')
      = conn (ix2 l' k) := by
  rw [flat_apply]
  refine transpose_apply _ _ _ _ _ ?_
  intro b
  match b with
  | ⟨0, _⟩ => rfl
  | ⟨1, _⟩ => rfl

/-- The row component at k·16384 + l' is the wiring entry (l', k) when that entry is not negative. -/
theorem rows_apply (conn : IVec S16384x6 32) (k : Fin 6) (l' : Fin 16384) (h : 0 ≤ (conn (ix2 l' k)).toInt) :
    rowsOf conn (jOf k l') = conn (ix2 l' k) := by
  unfold rowsOf
  rw [select_neg_bcast _ _ _ _ (by rw [rowsRaw_apply]; exact h), rowsRaw_apply]

/-- The repeated LUT numbers before the wrap: entry k·16384 + l' is l' as a word. -/
theorem colsRaw_apply (k : Fin 6) (l' : Fin 16384) :
    shapeCast S98304 (broadcastInDim S6x16384 ![0, 1] bcast_S1x16384_S6x16384_0_1
      (shapeCast S1x16384 (iotaInDim S16384 32 0) shapeCasts_S16384_S1x16384)) shapeCasts_S6x16384_S98304 (jOf k l')
      = BitVec.ofNat 32 l'.val := by
  rw [flat_apply]
  rw [broadcastInDim_apply _ _ _ _ (ix2 (0 : Fin 1) l') (by
    intro a
    match a with
    | ⟨0, _⟩ => rfl
    | ⟨1, _⟩ => rfl)]
  rw [shapeCast_apply _ _ _ (ix1 l') (by
    rw [Shape.rowMajor_val_two, Shape.rowMajor_val_one]
    show l'.val = 0 * 16384 + l'.val
    omega)]
  rfl

/-- A number below 16384 as a 32-bit word, read signed, is that number. -/
theorem toInt_ofNat_small (n : ℕ) (hn : n < 16384) : (BitVec.ofNat 32 n).toInt = (n : ℤ) :=
  toInt_ofNat_of_lt (by omega)

/-- The column component at k·16384 + l' is l' as a word. -/
theorem cols_apply (k : Fin 6) (l' : Fin 16384) : colsOf (jOf k l') = BitVec.ofNat 32 l'.val := by
  unfold colsOf
  rw [select_neg_bcast _ _ _ _ (by rw [colsRaw_apply, toInt_ofNat_small _ l'.isLt]; omega), colsRaw_apply]

/-- Column 0 of the pair array is the row component. -/
theorem pairs_apply0 (conn : IVec S16384x6 32) (j : S98304.Idx) :
    pairsOf conn (ix2 (j 0) (0 : Fin 2)) = rowsOf conn j := by
  unfold pairsOf
  rw [concatenate_pair_apply_left (s₁ := S98304x1) (s₂ := S98304x1) (1 : Fin S98304x2.rank) _ _ _ _ rfl (ix2 (j 0) (0 : Fin 1)) (by
    intro b
    match b with
    | ⟨0, _⟩ => rfl
    | ⟨1, _⟩ => rfl)]
  refine broadcastInDim_apply _ _ _ _ j ?_
  intro a
  match a with
  | ⟨0, _⟩ => rfl

/-- Column 1 of the pair array is the column component. -/
theorem pairs_apply1 (conn : IVec S16384x6 32) (j : S98304.Idx) :
    pairsOf conn (ix2 (j 0) (1 : Fin 2)) = colsOf j := by
  unfold pairsOf
  rw [concatenate_pair_apply_right (s₁ := S98304x1) (s₂ := S98304x1) (1 : Fin S98304x2.rank) _ _ _ _ rfl rfl (ix2 (j 0) (0 : Fin 1)) (by
    intro b hb
    match b with
    | ⟨0, _⟩ => rfl
    | ⟨1, _⟩ => exact absurd rfl hb) rfl]
  refine broadcastInDim_apply _ _ _ _ j ?_
  intro a
  match a with
  | ⟨0, _⟩ => rfl

/-- The update value at k·16384 + l' is the k-th weight, read signed, on the extended reals. -/
theorem vals_apply (P : IVec S6 32) (k : Fin 6) (l' : Fin 16384) :
    (valsOf (F := Ideal) P (jOf k l') : EReal) = (((P (ix1 k)).toInt : ℝ) : EReal) := by
  unfold valsOf
  rw [flat_apply]
  rw [broadcastInDim_apply _ _ _ _ (ix1 k) (by
    intro a
    match a with
    | ⟨0, _⟩ => rfl)]
  rfl

/-- The weight vector's k-th entry, read signed, is the power of two 2^(5-k). -/
theorem weight_apply (P : IVec S6 32) (hP : ∀ k : Fin 6, P (ix1 k) = BitVec.ofNat 32 (2 ^ (5 - k.val))) (k : Fin 6) :
    (((P (ix1 k)).toInt : ℝ) : EReal) = (((2 ^ (5 - k.val) : ℕ) : ℝ) : EReal) := by
  rw [hP k, toInt_ofNat_of_lt (Nat.pow_lt_pow_right (by norm_num) (by omega)), Int.cast_natCast]

/-- The bit position of an update index: its quotient by 16384. -/
def kOf (j : S98304.Idx) : Fin 6 :=
  ⟨(j 0).val / 16384, by have h : (j 0).val < 98304 := (j 0).isLt; omega⟩

theorem kOf_jOf (k : Fin 6) (l' : Fin 16384) : kOf (jOf k l') = k := by
  refine Fin.ext ?_
  show (k.val * 16384 + l'.val) / 16384 = k.val
  have := l'.isLt
  omega

/-- Update k·16384 + l' lands on element (i, l) exactly when l' = l and LUT l wires its bit position k to column i. -/
theorem lands_iff (conn : IVec S16384x6 32) (hr : InRange conn) (i : Fin 4096) (l : Fin 16384) (k : Fin 6) (l' : Fin 16384) :
    ((pairsOf conn (ix2 ((jOf k l') 0) (0 : Fin 2))).toInt = (i.val : ℤ) ∧
      (pairsOf conn (ix2 ((jOf k l') 0) (1 : Fin 2))).toInt = (l.val : ℤ)) ↔ (l' = l ∧ col conn l k = i) := by
  rw [pairs_apply0 conn (jOf k l'), pairs_apply1 conn (jOf k l'), rows_apply conn k l' (hr l' k).1, cols_apply,
    toInt_ofNat_small _ l'.isLt]
  constructor
  · rintro ⟨h1, h2⟩
    have hl : l' = l := Fin.ext (by omega)
    subst hl
    refine ⟨rfl, Fin.ext ?_⟩
    show min (conn (ix2 l' k)).toInt.toNat 4095 = i.val
    have := hr l' k
    omega
  · rintro ⟨rfl, h2⟩
    have h3 : min (conn (ix2 l' k)).toInt.toNat 4095 = i.val := congrArg Fin.val h2
    have := hr l' k
    exact ⟨by omega, rfl⟩

/-- The two casts, natural number to real to extended real, pushed through a finite sum. -/
theorem ereal_natCast_sum {ι : Type} (s : Finset ι) (f : ι → ℕ) :
    ∑ k ∈ s, (((f k : ℕ) : ℝ) : EReal) = (((∑ k ∈ s, f k : ℕ) : ℝ) : EReal) := by
  classical
  induction s using Finset.induction_on with
  | empty => simp
  | insert a s ha ih => rw [Finset.sum_insert ha, Finset.sum_insert ha, ih, Nat.cast_add, EReal.coe_add]

/-- The selector matrix read at (i, l) on the extended reals: with the weight vector holding the powers 2^(5-k) and
    every wiring entry a column in [0, 4096), update k·16384 + l' lands on (conn[l', k], l'), so element (i, l) collects
    exactly the weights of the bit positions that LUT l wires to column i. -/
theorem selector_apply (P : IVec S6 32) (hP : ∀ k : Fin 6, P (ix1 k) = BitVec.ofNat 32 (2 ^ (5 - k.val)))
    (conn : IVec S16384x6 32) (hr : InRange conn) (i : Fin 4096) (l : Fin 16384) :
    (selector (F := Ideal) P conn (ix2 i l) : EReal) = (((selW conn l i : ℕ) : ℝ) : EReal) := by
  -- the narrowing is the identity on the extended reals; the scatter into zeros is the sum of the landing updates
  have hs : (selector (F := Ideal) P conn (ix2 i l) : EReal) =
      ∑ j ∈ Finset.univ.filter (fun j : S98304.Idx =>
        (pairsOf conn (ix2 (j 0) (0 : Fin 2))).toInt = (i.val : ℤ) ∧
          (pairsOf conn (ix2 (j 0) (1 : Fin 2))).toInt = (l.val : ℤ)),
        (valsOf (F := Ideal) P j : EReal) :=
    Scatter.scatterAdd_zero_apply (pairsOf conn) (valsOf P) (ix2 i l)
  rw [hs]
  unfold selW
  rw [← ereal_natCast_sum]
  -- the landing updates are k·16384 + l for the bit positions k wired to column i: re-index by k
  refine Finset.sum_nbij' kOf (fun k => jOf k l) ?_ ?_ ?_ ?_ ?_
  · intro j hj
    obtain ⟨k, l', rfl⟩ := exists_jOf j
    rw [kOf_jOf]
    exact Finset.mem_filter.mpr ⟨Finset.mem_univ _, ((lands_iff conn hr i l k l').mp (Finset.mem_filter.mp hj).2).2⟩
  · intro k hk
    exact Finset.mem_filter.mpr ⟨Finset.mem_univ _, (lands_iff conn hr i l k l).mpr ⟨rfl, (Finset.mem_filter.mp hk).2⟩⟩
  · intro j hj
    obtain ⟨k, l', rfl⟩ := exists_jOf j
    have hl := ((lands_iff conn hr i l k l').mp (Finset.mem_filter.mp hj).2).1
    rw [kOf_jOf, hl]
  · intro k _
    exact kOf_jOf k l
  · intro j _
    obtain ⟨k, l', rfl⟩ := exists_jOf j
    rw [kOf_jOf, vals_apply, weight_apply P hP]

end Cert.KernelIdeal.Host

end
-- ==== Proof.KPayload.lean ====
import proofs.«425095_j47828755808728_2_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The index word -/

/-- Rounding a small natural number to the nearest even integer and converting it to a 32-bit word gives that number's word. -/
theorem word_of_nat (n : ℕ) (hn : n < 64) :
    Ideal.fptosi 32 (Ideal.liftRound Ideal.roundHalfEven (((n : ℝ)) : EReal)) = BitVec.ofNat 32 n := by
  rw [Ideal.liftRound_coe]
  have h1 : Ideal.roundHalfEven (n : ℝ) = (n : ℤ) := by
    unfold Ideal.roundHalfEven
    simp
  rw [h1]
  unfold Ideal.fptosi
  rw [Ideal.toIntClamped_coe]
  have h2 : (if (0:ℝ) ≤ (((n:ℤ)):ℝ) then ⌊(((n:ℤ)):ℝ)⌋ else ⌈(((n:ℤ)):ℝ)⌉) = (n:ℤ) := by
    rw [if_pos (by positivity)]; exact Int.floor_intCast _
  rw [h2]
  have h3 : max (-((2 ^ (32 - 1) : ℕ) : ℤ)) (min (((2 ^ (32 - 1) : ℕ) : ℤ) - 1) (n : ℤ)) = (n : ℤ) := by
    have e : ((2 ^ (32 - 1) : ℕ) : ℤ) = 2147483648 := by norm_num
    rw [e]; omega
  rw [h3]
  exact BitVec.ofInt_natCast 32 n

/-! ## The matrix product at an index -/

theorem lhs_0 (i : S1024x512.Idx) (k : dot_S1024x4096_S4096x512_S1024x512_1_0_0_1_n_n.contr.Idx) :
    (dot_S1024x4096_S4096x512_S1024x512_1_0_0_1_n_n.lhsIdx i k 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl

theorem lhs_1 (i : S1024x512.Idx) (k : dot_S1024x4096_S4096x512_S1024x512_1_0_0_1_n_n.contr.Idx) :
    (dot_S1024x4096_S4096x512_S1024x512_1_0_0_1_n_n.lhsIdx i k 1).val = (k ⟨0, by decide⟩).val :=
  dot_S1024x4096_S4096x512_S1024x512_1_0_0_1_n_n.lhsIdx_val_of_single rfl i k

theorem rhs_0 (i : S1024x512.Idx) (k : dot_S1024x4096_S4096x512_S1024x512_1_0_0_1_n_n.contr.Idx) :
    (dot_S1024x4096_S4096x512_S1024x512_1_0_0_1_n_n.rhsIdx i k 0).val = (k ⟨0, by decide⟩).val :=
  dot_S1024x4096_S4096x512_S1024x512_1_0_0_1_n_n.rhsIdx_val_of_single rfl i k

theorem rhs_1 (i : S1024x512.Idx) (k : dot_S1024x4096_S4096x512_S1024x512_1_0_0_1_n_n.contr.Idx) :
    (dot_S1024x4096_S4096x512_S1024x512_1_0_0_1_n_n.rhsIdx i k 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The product into a zero accumulator, at row `b` and lane `q`, is the exact sum over the contracted axis. -/
theorem acc_apply (x0 : FVec Ideal S1024x4096 .bf16) (x1 : FVec Ideal S4096x512 .bf16) (b : Fin 1024) (q : Fin 512) :
    FloatOps.matmul dot_S1024x4096_S4096x512_S1024x512_1_0_0_1_n_n none x0 x1 (constant (F := Ideal) S1024x512 .f32 0x00000000#32) (ix2 b q)
      = ∑ i : Fin 4096, x0 (ix2 b i) * x1 (ix2 i q) := by
  rw [Ideal.matmul_constant_zero_apply, ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx (ix2 b q) ((ValueIdx.contrEquiv1 dot_S1024x4096_S4096x512_S1024x512_1_0_0_1_n_n 4096 rfl rfl).symm k) = ix2 b k := funext fun a => Fin.ext (by
    match a with
    | ⟨0, _⟩ => exact lhs_0 _ _
    | ⟨1, _⟩ => exact (lhs_1 _ _).trans hk)
  have er : dot_S1024x4096_S4096x512_S1024x512_1_0_0_1_n_n.rhsIdx (ix2 b q) ((ValueIdx.contrEquiv1 dot_S1024x4096_S4096x512_S1024x512_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-- The index word at row `b`, lane `q`, when the exact sum there is the natural number `n < 64`. -/
theorem idx_apply (x0 : Vec Ideal S1024x4096 .bf16) (x1 : Vec Ideal S4096x512 .bf16) (b : Fin 1024) (q : Fin 512) (n : ℕ) (hn : n < 64)
    (hacc : ∑ i : Fin 4096, (x0 (ix2 b i) : EReal) * (x1 (ix2 i q) : EReal) = ((n : ℝ) : EReal)) :
    k0_pay2 (F := Ideal) x0 x1 (ix2 b q) = BitVec.ofNat 32 n := by
  unfold k0_pay2
  simp only [shapeCast_self]
  change Ideal.fptosi 32 (Ideal.liftRound Ideal.roundHalfEven (FloatOps.matmul dot_S1024x4096_S4096x512_S1024x512_1_0_0_1_n_n none x0 x1 (constant (F := Ideal) S1024x512 .f32 0x00000000#32) (ix2 b q))) = _
  rw [acc_apply, hacc]
  exact word_of_nat n hn

theorem pay3_eq (x2 : Vec Ideal S64x512 .f32) : k0_pay3 (F := Ideal) x2 = x2 := by
  unfold k0_pay3
  exact shapeCast_self _ _

/-! ## One step of the select chain at an index -/

/-- Row `off` of the table block, spread over all rows, read at row `b`, lane `q`. -/
theorem row_apply (v8 : FVec Ideal S64x512 .f32) (off : ℕ) (h : S64x512.Slices ![off, 0] S1x512)
    (h1 : S1x512.ShapeCasts S1x512) (h2 : S1x512.Broadcasts S1024x512) (b : Fin 1024) (q : Fin 512) :
    broadcastTo S1024x512 (shapeCast S1x512 (extractStridedSlice S1x512 ![off, 0] v8 h) h1) h2 (ix2 b q)
      = v8 (ix2 (⟨off, by have := h.2 0; simpa using this⟩ : Fin 64) q) := by
  rw [shapeCast_self]
  refine (broadcastTo_apply _ h2 (ix2 b q) (ix2 (0 : Fin 1) q) (fun a => ?_)).trans ?_
  · match a with
    | ⟨0, _⟩ => rfl
    | ⟨1, _⟩ => rfl
  refine extractStridedSlice_apply ![off, 0] v8 h (ix2 (0 : Fin 1) q) _ (fun a => ?_)
  match a with
  | ⟨0, _⟩ => rfl
  | ⟨1, _⟩ => exact (Nat.zero_add _).symm

theorem cmpi_apply' {s : Shape} {w : ℕ} (p : CmpIPredicate) (x y : IVec s w) (i : s.Idx) : cmpi p x y i = IntOp.cmpi p (x i) (y i) := rfl

theorem logistic_apply' {s : Shape} {φ : FTy} (x : FVec Ideal s φ) (i : s.Idx) : logistic x i = Ideal.logistic (x i) := rfl

/-- A select on a word comparison is a choice by the words' equality. -/
theorem sel_eq {α : Type} (w c : BitVec 32) (a b : α) : Scalar.select (IntOp.cmpi .eq w c) a b = if w = c then a else b := by
  by_cases h : w = c
  · rw [if_pos h, IntOp.cmpi_eq.mpr h]; exact select_one a b
  · rw [if_neg h, eq_zero_of_ne_one (fun h' => h (IntOp.cmpi_eq.mp h'))]; exact select_zero a b

/-! ## The stored block at an index -/

theorem zero_offsets : (![0, 0] : Fin 2 → Nat) = fun _ => 0 := funext fun a => by fin_cases a <;> rfl

/-- What the body stores at row `b`, lane `q` of its output block, from its three input blocks: when the row of the
    bit block against the column of the selector block sums to the integer `n < 64`, the 64-way select chain picks
    row `n` of the table block, and the logistic function is applied. -/
theorem out_apply (x0 : Vec Ideal S1024x4096 .bf16) (x1 : Vec Ideal S4096x512 .bf16) (x2 : Vec Ideal S64x512 .f32)
    (b : Fin 1024) (q : Fin 512) (n : Fin 64)
    (hacc : ∑ i : Fin 4096, (x0 (ix2 b i) : EReal) * (x1 (ix2 i q) : EReal) = ((n.val : ℝ) : EReal)) :
    (out0_3 (F := Ideal) x0 x1 x2 (ix2 b q) : EReal) = Ideal.logistic (x2 (ix2 n q) : EReal) := by
  unfold out0_3
  rw [View.canon_unit_zero zero_offsets]
  simp only [View.ld_unit_zero (S := S1024x4096) zero_offsets, View.ld_unit_zero (S := S4096x512) zero_offsets,
    View.ld_unit_zero (S := S64x512) zero_offsets]
  obtain ⟨n, hn⟩ := n
  have h6 := idx_apply x0 x1 b q n hn hacc
  unfold k0_pay1 k0_pay19 k0_pay16 k0_pay14 k0_pay11 k0_pay10 k0_pay7 k0_pay4 k0_pay5 k0_pay6 k0_pay8 k0_pay9 k0_pay12 k0_pay13 k0_pay15 k0_pay17 k0_pay18 k0_pay20
  simp only [logistic_apply', select_apply, cmpi_apply', broadcast_apply, row_apply, sel_eq, h6, pay3_eq]
  clear hacc h6
  interval_cases n <;> (simp only [BitVec.reduceEq, ↓reduceIte] <;> rfl)

end Cert.KernelIdeal.Payload

end
-- ==== Proof.KValue.lean ====
import proofs.«425095_j47828755808728_2_alg».proof.Proof.Gen.KernelIdeal.Value
import proofs.«425095_j47828755808728_2_alg».proof.Proof.KHost
import proofs.«425095_j47828755808728_2_alg».proof.Proof.KPow
import proofs.«425095_j47828755808728_2_alg».proof.Proof.KSelector
import proofs.«425095_j47828755808728_2_alg».proof.Proof.KPayload
import proofs.«425095_j47828755808728_2_alg».proof.Proof.LutAlgebra
import Idealize.ShloMosaic.Lib.Pipeline.Value
import Idealize.ShloMosaic.Lib.ValueIdx

/-!
  The kernel's result array is the layer's function `G` of the argument arrays.

  Grid point `t` of 32 handles LUTs 512·t … 512·t + 511: its bit block is the whole thresholded batch, its selector block
  the columns 512·t + q of the selector matrix, its table block the same columns of the transposed table. At row `b`,
  lane `q` the product of the bit row with the selector column is the address of LUT l = 512·t + q on row `b`, the
  select chain picks that row of the table block, which is tbl[l, addr], and the logistic function is applied. The 32
  output blocks tile the result array.
-/

noncomputable section

open scoped BigOperators

namespace Cert.KernelIdeal.KValue

open Cert.KernelIdeal Cert.KernelIdeal.Gen Cert.KernelIdeal.Host Cert.Lut
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 32 grid points: the bit block never moves; the other three windows sit at block
    column `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 32 :=
  lt_of_lt_of_eq t.isLt (show cfg0.N = 32 from N_0)

/-- The bit block at any point is the whole thresholded array. -/
theorem bits_blk (c : Dev nD) (t : Fin cfg0.N) (b : Fin 1024) (i : Fin 4096) :
    (iblk m c 0 t : Vec Ideal S1024x4096 .bf16) (ix2 b i)
      = (V m c main_v2 : (⟨S1024x4096, .bf16⟩ : BufTy).Contents (Elt Ideal)) (ix2 b i) := by
  obtain ⟨e0, e1, -⟩ := idx_facts t
  unfold iblk
  rw [View.read_apply]
  show (V m c main_v2 : (⟨S1024x4096, .bf16⟩ : BufTy).Contents (Elt Ideal)) _ = _
  refine congrArg _ (funext fun a => Fin.ext ?_)
  match a with
  | ⟨0, _⟩ => show win0_0.index t (0 : Fin 2) * 1024 + 1 * b.val = b.val; rw [e0]; omega
  | ⟨1, _⟩ => show win0_0.index t (1 : Fin 2) * 4096 + 1 * i.val = i.val; rw [e1]; omega

/-- The selector block at point `t`, lane `q`, is column 512·t + q of the selector matrix. -/
theorem sel_blk (c : Dev nD) (t : Fin cfg0.N) (i : Fin 4096) (q : Fin 512) (l : Fin 16384) (hl : l.val = t.val * 512 + q.val) :
    (iblk m c 1 t : Vec Ideal S4096x512 .bf16) (ix2 i q)
      = (V m c main_v84 : (⟨S4096x16384, .bf16⟩ : BufTy).Contents (Elt Ideal)) (ix2 i l) := by
  obtain ⟨-, -, e0, e1, -⟩ := idx_facts t
  unfold iblk
  rw [View.read_apply]
  show (V m c main_v84 : (⟨S4096x16384, .bf16⟩ : BufTy).Contents (Elt Ideal)) _ = _
  refine congrArg _ (funext fun a => Fin.ext ?_)
  match a with
  | ⟨0, _⟩ => show win0_1.index t (0 : Fin 2) * 4096 + 1 * i.val = i.val; rw [e0]; omega
  | ⟨1, _⟩ => show win0_1.index t (1 : Fin 2) * 512 + 1 * q.val = l.val; rw [e1, hl]; omega

/-- The table block at point `t`, lane `q`, is column 512·t + q of the transposed table. -/
theorem tbl_blk (c : Dev nD) (t : Fin cfg0.N) (n : Fin 64) (q : Fin 512) (l : Fin 16384) (hl : l.val = t.val * 512 + q.val) :
    (iblk m c 2 t : Vec Ideal S64x512 .f32) (ix2 n q)
      = (V m c main_v85 : (⟨S64x16384, .f32⟩ : BufTy).Contents (Elt Ideal)) (ix2 n l) := by
  obtain ⟨-, -, -, -, e0, e1, -⟩ := idx_facts t
  unfold iblk
  rw [View.read_apply]
  show (V m c main_v85 : (⟨S64x16384, .f32⟩ : BufTy).Contents (Elt Ideal)) _ = _
  refine congrArg _ (funext fun a => Fin.ext ?_)
  match a with
  | ⟨0, _⟩ => show win0_2.index t (0 : Fin 2) * 64 + 1 * n.val = n.val; rw [e0]; omega
  | ⟨1, _⟩ => show win0_2.index t (1 : Fin 2) * 512 + 1 * q.val = l.val; rw [e1, hl]; omega

theorem hz : (![0, 0] : Fin 2 → Nat) = fun _ => 0 := funext fun a => by fin_cases a <;> rfl

/-- The transposed table at (n, l) is the table at (l, n). -/
theorem tblT_apply (tbl : FVec Ideal S16384x64 .f32) (n : Fin 64) (l : Fin 16384) :
    transpose S64x16384 [1, 0] tbl transposes_S16384x64_S64x16384_1_0 (ix2 n l) = tbl (ix2 l n) := by
  refine transpose_apply _ _ _ _ _ fun b => ?_
  match b with
  | ⟨0, _⟩ => rfl
  | ⟨1, _⟩ => rfl

/-- The bit block's entry as an extended real: 0 or 1, the thresholded bit. -/
theorem bits_val (c : Dev nD) (b : Fin 1024) (i : Fin 4096) :
    ((V m c main_v2 : (⟨S1024x4096, .bf16⟩ : BufTy).Contents (Elt Ideal)) (ix2 b i) : EReal)
      = (((bitW (m ((c : Thread nD τ).loc main_arg0)) b i).toNat : ℝ) : EReal) := by
  rw [V_bits]
  rfl

/-- The selector block's entry as an extended real. -/
theorem sel_val (c : Dev nD) (hr : InRange (m ((c : Thread nD τ).loc main_arg2))) (i : Fin 4096) (l : Fin 16384) :
    ((V m c main_v84 : (⟨S4096x16384, .bf16⟩ : BufTy).Contents (Elt Ideal)) (ix2 i l) : EReal)
      = (((selW (m ((c : Thread nD τ).loc main_arg2)) l i : ℕ) : ℝ) : EReal) := by
  rw [V_sel]
  exact selector_apply _ (fun k => V_pow m c k) _ hr i l

/-- WHAT POINT `t` WRITES BACK is block `t` of `G` of the argument arrays. -/
theorem flushed_eq (c : Dev nD) (hr : InRange (m ((c : Thread nD τ).loc main_arg2))) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  obtain ⟨-, -, -, -, -, -, e0, e1⟩ := idx_facts t
  have ht := point_lt t
  funext j
  obtain ⟨b, q, rfl⟩ : ∃ (b : Fin 1024) (q : Fin 512), j = ix2 b q := ⟨j 0, j 1, eq_ix2 j⟩
  have hq := q.isLt
  have hemb : ((cfg0.win 3).blk t).view.emb (ix2 b q) = ix2 b (⟨t.val * 512 + q.val, by omega⟩ : Fin 16384) := by
    funext a
    apply Fin.ext
    match a with
    | ⟨0, _⟩ => show win0_3.index t (0 : Fin 2) * 1024 + 1 * b.val = b.val; rw [e0]; omega
    | ⟨1, _⟩ => show win0_3.index t (1 : Fin 2) * 512 + 1 * q.val = t.val * 512 + q.val; rw [e1]; omega
  show out0_3 (F := Ideal) (iblk m c 0 t) (iblk m c 1 t) (iblk m c 2 t) (ix2 b q) = G _ _ _ (((cfg0.win 3).blk t).view.emb (ix2 b q))
  rw [hemb, G_apply]
  refine (Cert.KernelIdeal.Payload.out_apply (iblk m c 0 t) (iblk m c 1 t) (iblk m c 2 t) b q
    ⟨addr (m ((c : Thread nD τ).loc main_arg0)) (m ((c : Thread nD τ).loc main_arg2)) b ⟨t.val * 512 + q.val, by omega⟩, addr_lt _ _ _ _⟩ ?_).trans ?_
  · refine (Finset.sum_congr rfl fun i _ => ?_).trans (acc_eq_addr _ _ b ⟨t.val * 512 + q.val, by omega⟩)
    rw [bits_blk m c t b i, sel_blk m c t i q ⟨t.val * 512 + q.val, by omega⟩ rfl, bits_val m c b i, sel_val m c hr i _]
  · unfold lut
    rw [tbl_blk m c t _ q ⟨t.val * 512 + q.val, by omega⟩ rfl, V_tblT, tblT_apply]

/-- The 32 output blocks tile the result array. -/
theorem covered (i : S1024x16384.Idx) : ∃ t : Fin cfg0.N, (cfg0.win 3).flush t = true ∧ i ∈ ((cfg0.win 3).blk t).view.set := by
  have hi0 : (i 0).val < 1024 := (i 0).isLt
  have hi1 : (i 1).val < 16384 := (i 1).isLt
  have hN : cfg0.N = 32 := N_0
  let t : Fin cfg0.N := ⟨(i 1).val / 512, by rw [hN]; omega⟩
  obtain ⟨-, -, -, -, -, -, e0, e1⟩ := idx_facts t
  refine ⟨t, flush0_3 t, ?_⟩
  show i ∈ ((View.whole main_v86).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 512 ≤ (i 1).val ∧ (i 1).val < win0_3.index t (1 : Fin 2) * 512 + 512
    rw [e1]; show (i 1).val / 512 * 512 ≤ (i 1).val ∧ (i 1).val < (i 1).val / 512 * 512 + 512; omega

/-- THE ARRAY after the run is `G` of the argument arrays. -/
theorem final (c : Dev nD) (hr : InRange (m ((c : Thread nD τ).loc main_arg2))) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c hr t) covered

/-- The kernel's run, read: the result array at `G` of the arguments, the arguments unchanged. -/
theorem run (hr : ∀ c : Dev nD, InRange (m ((c : Thread nD τ).loc main_arg2))) :
    θ_run defs (onTc (τ := τ) (main (F := Ideal))) ⟨m, fun _ => 0, ρ⟩ fun r => ∀ c : Dev nD,
      r.2.mem ((c : Thread nD τ).loc main_v86)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hr c)), (h c).2⟩)
    (Cert.KernelIdeal.Value.run_blocks m ρ)

end Cert.KernelIdeal.KValue

end
-- ==== Proof.RefGather.lean ====
import proofs.«425095_j47828755808728_2_alg».proof.ReferenceIdeal
import Idealize.ShloMosaic.Lib.ValueIdx

noncomputable section

namespace Cert.ReferenceIdeal.Gathers

open Cert.ReferenceIdeal Idealize.ShloMosaic Idealize.ShloMosaic.ValueIdx

variable [Facts₀] {α : Type}

/-- Gathering columns of a [1024, 4096] array along axis 1 at a [16384, 6] array of start indices (carried as [16384, 6, 1]):
    result element (b, l, k) is the operand at row b and at the column the start index (l, k) names, read signed and
    clamped into [0, 4095]. -/
theorem gather_bits_apply (x : S1024x4096.Idx → α) (idx : IVec S16384x6x1 32) (b : Fin 1024) (l : Fin 16384) (k : Fin 6) :
    Host.gather gather_S1024x4096_S16384x6x1_S1024x16384x6_0_1_n_n_1_2_10241 x idx (ix3 b l k)
      = x (ix2 b ⟨min (idx (ix3 l k (0 : Fin 1))).toInt.toNat 4095, by omega⟩) := by
  unfold Host.gather
  congr 1
  funext a
  refine Fin.ext ?_
  match a with
  | ⟨0, _⟩ =>
    -- the row axis: no start (it is not in the start index map), no batching; the offset coordinate is b
    show gather_S1024x4096_S16384x6x1_S1024x16384x6_0_1_n_n_1_2_10241.start (ix3 b l k) idx 0
        + gather_S1024x4096_S16384x6x1_S1024x16384x6_0_1_n_n_1_2_10241.batchCoord (ix3 b l k) 0
        + gather_S1024x4096_S16384x6x1_S1024x16384x6_0_1_n_n_1_2_10241.offCoord (ix3 b l k) 0 = b.val
    rw [GatherDims.batchCoord_eq_zero _ _ _ List.not_mem_nil]
    have hs : gather_S1024x4096_S16384x6x1_S1024x16384x6_0_1_n_n_1_2_10241.start (ix3 b l k) idx 0 = 0 := by
      unfold GatherDims.start
      rw [dif_neg (show (0 : Fin 2) ∉ gather_S1024x4096_S16384x6x1_S1024x16384x6_0_1_n_n_1_2_10241.startIndexMap from
        (by decide : (0 : Fin 2) ∉ ([1] : List (Fin 2))))]
    have hk : (0 : Fin 2) ∈ gather_S1024x4096_S16384x6x1_S1024x16384x6_0_1_n_n_1_2_10241.sKept :=
      (GatherDims.mem_sKept _ _).mpr ⟨(by decide : (0 : Fin 2) ∉ ([1] : List (Fin 2))), List.not_mem_nil⟩
    rw [hs]
    unfold GatherDims.offCoord
    rw [dif_pos hk]
    simp only [Nat.add_zero, Nat.zero_add]
    rfl
  | ⟨1, _⟩ =>
    -- the column axis: collapsed, so no offset; the start is the clamped start index
    show gather_S1024x4096_S16384x6x1_S1024x16384x6_0_1_n_n_1_2_10241.start (ix3 b l k) idx 1
        + gather_S1024x4096_S16384x6x1_S1024x16384x6_0_1_n_n_1_2_10241.batchCoord (ix3 b l k) 1
        + gather_S1024x4096_S16384x6x1_S1024x16384x6_0_1_n_n_1_2_10241.offCoord (ix3 b l k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x4096_S16384x6x1_S1024x16384x6_0_1_n_n_1_2_10241.startIndexMap from
      List.mem_singleton.mpr rfl)]
    have hsi : gather_S1024x4096_S16384x6x1_S1024x16384x6_0_1_n_n_1_2_10241.siIdx (ix3 b l k)
        ⟨List.idxOf (1 : Fin 2) gather_S1024x4096_S16384x6x1_S1024x16384x6_0_1_n_n_1_2_10241.startIndexMap,
          List.idxOf_lt_length_iff.2 (List.mem_singleton.mpr rfl)⟩ = ix3 l k (0 : Fin 1) := by
      funext c; refine Fin.ext ?_
      match c with
      | ⟨0, _⟩ => rfl
      | ⟨1, _⟩ => rfl
      | ⟨2, _⟩ => rfl
    rw [hsi]
    rfl

/-- Gathering single elements of a [16384, 64] array at a [1024, 16384] array of (row, column) start-index pairs
    (carried as [1024, 16384, 2]): result element (b, l) is the operand at the pair the start indices name at (b, l),
    each component read signed and clamped into its axis. -/
theorem gather_table_apply (t : S16384x64.Idx → α) (idx : IVec S1024x16384x2 32) (b : Fin 1024) (l : Fin 16384) :
    Host.gather gather_S16384x64_S1024x16384x2_S1024x16384_n_01_n_n_01_2_11 t idx (ix2 b l)
      = t (ix2 ⟨min (idx (ix3 b l (0 : Fin 2))).toInt.toNat 16383, by omega⟩
               ⟨min (idx (ix3 b l (1 : Fin 2))).toInt.toNat 63, by omega⟩) := by
  unfold Host.gather
  congr 1
  funext a
  refine Fin.ext ?_
  match a with
  | ⟨0, _⟩ =>
    show gather_S16384x64_S1024x16384x2_S1024x16384_n_01_n_n_01_2_11.start (ix2 b l) idx 0
        + gather_S16384x64_S1024x16384x2_S1024x16384_n_01_n_n_01_2_11.batchCoord (ix2 b l) 0
        + gather_S16384x64_S1024x16384x2_S1024x16384_n_01_n_n_01_2_11.offCoord (ix2 b l) 0 = _
    rw [GatherDims.batchCoord_eq_zero _ _ _ List.not_mem_nil,
      GatherDims.offCoord_eq_zero _ _ _ (fun h => ((GatherDims.mem_sKept _ _).mp h).1
        (by decide : (0 : Fin 2) ∈ ([0, 1] : List (Fin 2))))]
    simp only [Nat.add_zero]
    unfold GatherDims.start
    rw [dif_pos (show (0 : Fin 2) ∈ gather_S16384x64_S1024x16384x2_S1024x16384_n_01_n_n_01_2_11.startIndexMap from
      (by decide : (0 : Fin 2) ∈ ([0, 1] : List (Fin 2))))]
    have hsi : gather_S16384x64_S1024x16384x2_S1024x16384_n_01_n_n_01_2_11.siIdx (ix2 b l)
        ⟨List.idxOf (0 : Fin 2) gather_S16384x64_S1024x16384x2_S1024x16384_n_01_n_n_01_2_11.startIndexMap,
          List.idxOf_lt_length_iff.2 (by decide : (0 : Fin 2) ∈ ([0, 1] : List (Fin 2)))⟩ = ix3 b l (0 : Fin 2) := by
      funext c; refine Fin.ext ?_
      match c with
      | ⟨0, _⟩ => rfl
      | ⟨1, _⟩ => rfl
      | ⟨2, _⟩ => rfl
    rw [hsi]
    rfl
  | ⟨1, _⟩ =>
    show gather_S16384x64_S1024x16384x2_S1024x16384_n_01_n_n_01_2_11.start (ix2 b l) idx 1
        + gather_S16384x64_S1024x16384x2_S1024x16384_n_01_n_n_01_2_11.batchCoord (ix2 b l) 1
        + gather_S16384x64_S1024x16384x2_S1024x16384_n_01_n_n_01_2_11.offCoord (ix2 b l) 1 = _
    rw [GatherDims.batchCoord_eq_zero _ _ _ List.not_mem_nil,
      GatherDims.offCoord_eq_zero _ _ _ (fun h => ((GatherDims.mem_sKept _ _).mp h).1
        (by decide : (1 : Fin 2) ∈ ([0, 1] : List (Fin 2))))]
    simp only [Nat.add_zero]
    unfold GatherDims.start
    rw [dif_pos (show (1 : Fin 2) ∈ gather_S16384x64_S1024x16384x2_S1024x16384_n_01_n_n_01_2_11.startIndexMap from
      (by decide : (1 : Fin 2) ∈ ([0, 1] : List (Fin 2))))]
    have hsi : gather_S16384x64_S1024x16384x2_S1024x16384_n_01_n_n_01_2_11.siIdx (ix2 b l)
        ⟨List.idxOf (1 : Fin 2) gather_S16384x64_S1024x16384x2_S1024x16384_n_01_n_n_01_2_11.startIndexMap,
          List.idxOf_lt_length_iff.2 (by decide : (1 : Fin 2) ∈ ([0, 1] : List (Fin 2)))⟩ = ix3 b l (1 : Fin 2) := by
      funext c; refine Fin.ext ?_
      match c with
      | ⟨0, _⟩ => rfl
      | ⟨1, _⟩ => rfl
      | ⟨2, _⟩ => rfl
    rw [hsi]
    rfl

end Cert.ReferenceIdeal.Gathers

end
-- ==== Proof.RefAddr.lean ====
import proofs.«425095_j47828755808728_2_alg».proof.Proof.RefReadP
import proofs.«425095_j47828755808728_2_alg».proof.Proof.RefGather
import proofs.«425095_j47828755808728_2_alg».proof.Proof.LutSpec
import Idealize.ShloMosaic.PureOps.Ideal
import Idealize.ShloMosaic.Lib.ValueIdx
import Idealize.ShloMosaic.Lib.Pipeline.Value
import Idealize.ShloMosaic.Lib.StableHlo.Predicate
import Idealize.ShloMosaic.PureOps.Reduce

noncomputable section

open scoped BigOperators

namespace Cert.ReferenceIdeal.RefValue

open Cert.ReferenceIdeal Cert.ReferenceIdeal.ReadP Cert.Lut Idealize.ShloMosaic Idealize.ShloMosaic.ValueIdx

variable [Facts₀]

/-- The six weights the program computes by square-and-multiply from the exponents 5, 4, 3, 2, 1, 0: entry `k` is the
    word 2^(5-k). -/
private theorem pow_word (k : Fin 6) : val_main_v64 (F := Ideal) (ix1 k) = BitVec.ofNat 32 (2 ^ (5 - k.val)) := by
  fin_cases k <;>
  · simp only [val_main_v9_apply, val_main_c_1_apply, val_main_v10_apply, val_main_v11_apply, val_main_c_2_apply, val_main_v12_apply, val_main_v13_apply, val_main_c_3_apply, val_main_c_4_apply, val_main_v14_apply, val_main_c_5_apply, val_main_v15_apply, val_main_v16_apply, val_main_v17_apply, val_main_v18_apply, val_main_c_6_apply, val_main_c_7_apply, val_main_call0_v0_apply, val_main_call0_v1_apply, val_main_v19_apply, val_main_c_8_apply, val_main_v20_apply, val_main_v21_apply, val_main_c_9_apply, val_main_v22_apply, val_main_v23_apply, val_main_call1_c_apply, val_main_call1_v0_apply, val_main_call1_v1_apply, val_main_v24_apply, val_main_c_10_apply, val_main_c_11_apply, val_main_v25_apply, val_main_c_12_apply, val_main_v26_apply, val_main_v27_apply, val_main_c_13_apply, val_main_v28_apply, val_main_v29_apply, val_main_v30_apply, val_main_v31_apply, val_main_call2_c_apply, val_main_call2_v0_apply, val_main_call2_v1_apply, val_main_v32_apply, val_main_v33_apply, val_main_c_14_apply, val_main_v34_apply, val_main_v35_apply, val_main_c_15_apply, val_main_v36_apply, val_main_v37_apply, val_main_v38_apply, val_main_v39_apply, val_main_call3_c_apply, val_main_call3_v0_apply, val_main_call3_v1_apply, val_main_v40_apply, val_main_v41_apply, val_main_c_16_apply, val_main_v42_apply, val_main_v43_apply, val_main_c_17_apply, val_main_v44_apply, val_main_v45_apply, val_main_v46_apply, val_main_v47_apply, val_main_call4_c_apply, val_main_call4_v0_apply, val_main_call4_v1_apply, val_main_v48_apply, val_main_v49_apply, val_main_c_18_apply, val_main_v50_apply, val_main_v51_apply, val_main_c_19_apply, val_main_v52_apply, val_main_v53_apply, val_main_v54_apply, val_main_v55_apply, val_main_call5_c_apply, val_main_call5_v0_apply, val_main_call5_v1_apply, val_main_v56_apply, val_main_v57_apply, val_main_c_20_apply, val_main_v58_apply, val_main_v59_apply, val_main_c_21_apply, val_main_v60_apply, val_main_v61_apply, val_main_v62_apply, val_main_v63_apply, val_main_call6_c_apply, val_main_call6_v0_apply, val_main_call6_v1_apply, val_main_v64_apply]
    decide

/-- Dropping the last axis of a [1024, 16384, 6] array leaves a [1024, 16384] array. -/
private theorem reduces_last : S1024x16384x6.Reduces [2] S1024x16384 := by decide

/-- The index over (b, l) with `k` inserted on the last axis is (b, l, k). -/
private theorem lift_last (b : Fin 1024) (l : Fin 16384) (k : Fin 6) : reduces_last.lift (ix2 b l) k = ix3 b l k := by
  funext c
  match c with
  | ⟨0, _⟩ => exact Fin.ext rfl
  | ⟨1, _⟩ => exact Fin.ext rfl
  | ⟨2, _⟩ => exact Fin.ext rfl

/-- A wiring entry in [0, 4096) is not negative, so the wrap-around of negative indices leaves it as it is. -/
private theorem wrap_eq (conn : IVec SC 32) (hr : InRange conn) (l : Fin 16384) (k : Fin 6) :
    val_main_v7 (F := Ideal) conn (ix3 l k (0 : Fin 1)) = conn (ix2 l k) := by
  have e : idx_main_v7 (ix3 l k (0 : Fin 1)) = ix2 l k := by
    funext a; match a with | ⟨0, _⟩ => rfl | ⟨1, _⟩ => rfl
  rw [val_main_v7_apply, e, val_main_v6_apply, val_main_v3_apply, val_main_v2_apply, val_main_c_apply]
  have hz : IntOp.cmpi .slt (conn (ix2 l k)) 0#32 = 0#1 := by
    refine eq_zero_of_ne_one fun h => ?_
    have h1 := IntOp.cmpi_slt.1 h
    rw [show (0#32 : BitVec 32).toInt = 0 from by decide] at h1
    have := (hr l k).1
    omega
  rw [hz, select_zero]

/-- The gathered bit at (b, l, k) is the thresholded bit of `x` at row `b` and the column LUT `l` reads for its `k`-th bit. -/
private theorem gathered_bit (x : FVec Ideal SX .f32) (conn : IVec SC 32) (hr : InRange conn) (b : Fin 1024) (l : Fin 16384) (k : Fin 6) :
    val_main_v8 (F := Ideal) x conn (ix3 b l k) = bitW x b (col conn l k) := by
  unfold val_main_v8
  rw [Gathers.gather_bits_apply]
  have e : (⟨min (val_main_v7 (F := Ideal) conn (ix3 l k (0 : Fin 1))).toInt.toNat 4095, by omega⟩ : Fin 4096) = col conn l k :=
    Fin.ext (by show min _ 4095 = min _ 4095; rw [wrap_eq conn hr l k])
  rw [e, val_main_v1_apply, val_main_v0_apply, val_main_cst_apply]
  rfl

/-- The reference's address word: at batch row `b`, LUT `l`, the integer sum over the six gathered bits, each widened to
    32 bits and weighted by its power of two (32, 16, 8, 4, 2, 1), is the address `addr` as a 32-bit word. -/
theorem ref_addr (x : FVec Ideal SX .f32) (conn : IVec SC 32) (hr : InRange conn) (b : Fin 1024) (l : Fin 16384) :
    val_main_v72 (F := Ideal) x conn (ix2 b l) = BitVec.ofNat 32 (addr x conn b l) := by
  unfold val_main_v72
  rw [Host.reduce_eq_fold_single IntOp.addi _ _ Facts₀.reducesTo_S1024x16384x6_S1024x16384_d2 reduces_last Facts₀.h_S_]
  apply BitVec.eq_of_toNat_eq
  have hterm : ∀ k : Fin 6, ((val_main_v71 (F := Ideal) x conn ∘ reduces_last.lift (ix2 b l)) k).toNat
      = 2 ^ (5 - k.val) * (bitW x b (col conn l k)).toNat := by
    intro k
    show (val_main_v71 (F := Ideal) x conn (reduces_last.lift (ix2 b l) k)).toNat = _
    have e : idx_main_v69 (idx_main_v70 (ix3 b l k)) = ix1 k := by
      funext a; match a with | ⟨0, _⟩ => rfl
    rw [lift_last, val_main_v71_apply, val_main_v68_apply, gathered_bit x conn hr, val_main_v70_apply, val_main_v69_apply, e, pow_word]
    generalize bitW x b (col conn l k) = w
    revert w
    fin_cases k <;> decide
  have hsum : ∑ k : Fin 6, ((val_main_v71 (F := Ideal) x conn ∘ reduces_last.lift (ix2 b l)) k).toNat = addr x conn b l := by
    unfold addr
    exact Finset.sum_congr rfl fun k _ => hterm k
  have hlt := addr_lt x conn b l
  have key := StableHlo.Predicate.toNat_fold_addi (Finset.univ : Finset (Fin 6))
    (val_main_v71 (F := Ideal) x conn ∘ reduces_last.lift (ix2 b l)) (lt_of_eq_of_lt hsum (by omega))
  rw [BitVec.toNat_ofNat, Nat.mod_eq_of_lt (by omega)]
  exact key.trans hsum

end Cert.ReferenceIdeal.RefValue

end
-- ==== Proof.RefValue.lean ====
import proofs.«425095_j47828755808728_2_alg».proof.Proof.RefAddr

noncomputable section

open scoped BigOperators

namespace Cert.ReferenceIdeal.RefValue

open Cert.ReferenceIdeal Cert.ReferenceIdeal.ReadP Cert.Lut Idealize.ShloMosaic Idealize.ShloMosaic.ValueIdx

variable [Facts₀]

/-- The f32 pattern 0x3F800000 is the extended real 1. -/
private theorem one_f32 : FloatOps.ofBits (F := Ideal) .f32 0x3F800000#32 = (1 : EReal) := by
  show Ideal.ofBits .f32 0x3F800000#32 = 1
  simp [Ideal.ofBits, Ideal.ieee, -EReal.coe_mul]; norm_num

/-- A natural below 2^31, as a 32-bit word, reads back as itself when read signed. -/
private theorem toInt_ofNat_small (n : ℕ) (h : n < 2 ^ 31) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- Such a word is not negative: the signed comparison against zero gives the zero bit. -/
private theorem slt_zero_small (n : ℕ) (h : n < 2 ^ 31) : IntOp.cmpi .slt (BitVec.ofNat 32 n) 0#32 = 0#1 := by
  show BitVec.ofBool ((BitVec.ofNat 32 n).slt 0#32) = 0#1
  have hf : (BitVec.ofNat 32 n).slt 0#32 = false := by
    unfold BitVec.slt
    rw [toInt_ofNat_small n h, BitVec.toInt_zero]
    exact decide_eq_false (by omega)
  rw [hf]; rfl

/-- Read signed and clamped below a bound it already respects, such a word names the natural itself. -/
private theorem clamp_small (n m : ℕ) (h : n < 2 ^ 31) (hm : n ≤ m) : min (BitVec.ofNat 32 n).toInt.toNat m = n := by
  rw [toInt_ofNat_small n h, Int.toNat_natCast]; omega

/-- The row component of the second gather's start indices at (b, l): the LUT number l as a word. -/
private theorem row_word (x : FVec Ideal SX .f32) (conn : IVec SC 32) (b : Fin 1024) (l : Fin 16384) :
    val_main_v88 (F := Ideal) x conn (ix3 b l (0 : Fin 2)) = BitVec.ofNat 32 l.val := by
  unfold val_main_v88
  rw [concatenate_pair_apply_left (2 : Fin 3) (val_main_v86 (F := Ideal)) (val_main_v87 (F := Ideal) x conn)
    Gen.concatenates_S1024x16384x1_S1024x16384x1_S1024x16384x2_d2 (ix3 b l (0 : Fin 2)) rfl (ix3 b l (0 : Fin 1))
    (fun a => match a with | ⟨0, _⟩ => rfl | ⟨1, _⟩ => rfl | ⟨2, _⟩ => rfl)]
  rw [val_main_v86_apply, val_main_v85_apply, val_main_v79_apply, val_main_v76_apply, val_main_v75_apply,
    val_main_c_24_apply, val_main_v74_apply, val_main_v73_apply]
  show Scalar.select (IntOp.cmpi .slt (BitVec.ofNat 32 l.val) 0#32) _ (BitVec.ofNat 32 l.val) = _
  rw [slt_zero_small l.val (by have := l.isLt; omega), select_zero]

/-- The column component at (b, l): the address word, which the wrap-around of negative indices leaves alone. -/
private theorem col_word (x : FVec Ideal SX .f32) (conn : IVec SC 32) (hr : InRange conn) (b : Fin 1024) (l : Fin 16384) :
    val_main_v88 (F := Ideal) x conn (ix3 b l (1 : Fin 2)) = BitVec.ofNat 32 (addr x conn b l) := by
  unfold val_main_v88
  rw [concatenate_pair_apply_right (2 : Fin 3) (val_main_v86 (F := Ideal)) (val_main_v87 (F := Ideal) x conn)
    Gen.concatenates_S1024x16384x1_S1024x16384x1_S1024x16384x2_d2 (ix3 b l (1 : Fin 2)) rfl rfl (ix3 b l (0 : Fin 1))
    (fun a => match a with | ⟨0, _⟩ => fun _ => rfl | ⟨1, _⟩ => fun _ => rfl | ⟨2, _⟩ => fun h => absurd rfl h) rfl]
  have hi : idx_main_v87 (ix3 b l (0 : Fin 1)) = ix2 b l := by
    funext a; match a with | ⟨0, _⟩ => rfl | ⟨1, _⟩ => rfl
  rw [val_main_v87_apply, hi, val_main_v84_apply, val_main_v81_apply, val_main_v80_apply, val_main_c_26_apply,
    ref_addr x conn hr b l, slt_zero_small _ (by have := addr_lt x conn b l; omega), select_zero]

/-- The reference's result array is the layer's function `G`: at (b, l) the second gather reads the table at row `l`
    (an iota, already in range) and at the column the address word names (in [0, 64), so neither the wrap-around
    of a negative index nor the clamp moves it), and negate / exponential / add / divide spell the logistic function. -/
theorem ref_is_G (x : FVec Ideal SX .f32) (tbl : FVec Ideal ST .f32) (conn : IVec SC 32) (hr : InRange conn) :
    val_main_v95 (F := Ideal) x tbl conn = G x tbl conn := by
  funext j
  obtain ⟨b, l, rfl⟩ : ∃ (b : Fin 1024) (l : Fin 16384), j = ix2 b l := ⟨j 0, j 1, eq_ix2 j⟩
  rw [G_apply, val_main_v95_apply, val_main_v94_apply, val_main_cst_29_apply, val_main_v93_apply, val_main_v92_apply,
    val_main_cst_28_apply, val_main_v91_apply, val_main_v90_apply, one_f32]
  unfold val_main_v89
  rw [Gathers.gather_table_apply]
  have haddr := addr_lt x conn b l
  have hl := l.isLt
  -- negate, exponential, add one, divide one by it: the logistic function
  show Ideal.logistic (tbl _) = Ideal.logistic (tbl _)
  refine congrArg Ideal.logistic (congrArg tbl ?_)
  funext a
  match a with
  | ⟨0, _⟩ =>
    refine Fin.ext ?_
    show min (val_main_v88 (F := Ideal) x conn (ix3 b l (0 : Fin 2))).toInt.toNat 16383 = l.val
    rw [row_word]
    exact clamp_small l.val 16383 (by omega) (by omega)
  | ⟨1, _⟩ =>
    refine Fin.ext ?_
    show min (val_main_v88 (F := Ideal) x conn (ix3 b l (1 : Fin 2))).toInt.toNat 63 = addr x conn b l
    rw [col_word x conn hr]
    exact clamp_small (addr x conn b l) 63 (by omega) (by omega)

end Cert.ReferenceIdeal.RefValue

end
-- ==== Proof.PreDecode.lean ====
import proofs.«425095_j47828755808728_2_alg».proof.Pre_finite_inputs
import proofs.«425095_j47828755808728_2_alg».proof.Proof.LutSpec
import Idealize.ShloMosaic.PureOps.Ideal
import Idealize.ShloMosaic.Lib.ValueIdx
import Idealize.ShloMosaic.Lib.ReduceAll
import Idealize.ShloMosaic.Lib.StableHlo.Predicate

noncomputable section

namespace Cert.Lut

open Idealize.ShloMosaic Idealize.ShloMosaic.ValueIdx

/-- The precondition's last two conjuncts say that every wiring entry is at least 0 and below 4096, read signed. -/
theorem inRange_of_pre [Cert.Pre_finite_inputs.Facts] (x : FVec Ideal SX .f32) (tbl : FVec Ideal ST .f32) (conn : IVec SC 32)
    (h : Cert.Pre_finite_inputs.fn (F := Ideal) x tbl conn = fun _ => 1#1) : InRange conn := by
  have h0 := congrFun h ValueIdx.ix0
  dsimp only [Cert.Pre_finite_inputs.fn, Cert.Pre_finite_inputs.fn_part1] at h0
  obtain ⟨h12, hlt⟩ := IntOp.andi_eq_one.1 h0
  obtain ⟨-, hge⟩ := IntOp.andi_eq_one.1 h12
  intro l k
  -- the rank-0 index set has one element, so each reduction over both axes has a single result
  haveI : Subsingleton Cert.Pre_finite_inputs.S_.Idx := ⟨fun _ _ => funext fun d => d.elim0⟩
  have a := Host.reduce_andi_all _ _ _ _ _ hge (ix2 l k)
  have b := Host.reduce_andi_all _ _ _ _ _ hlt (ix2 l k)
  have a' : (0#32 : BitVec 32).toInt ≤ (conn (ix2 l k)).toInt := by
    have t := IntOp.cmpi_sge.1 (show IntOp.cmpi .sge (conn (ix2 l k)) _ = 1#1 from a)
    rw [StableHlo.Predicate.bcast_scalar _ Cert.Pre_finite_inputs.Facts.h_S_] at t
    exact t
  have b' : (conn (ix2 l k)).toInt < (4096#32 : BitVec 32).toInt := by
    have t := IntOp.cmpi_slt.1 (show IntOp.cmpi .slt (conn (ix2 l k)) _ = 1#1 from b)
    rw [StableHlo.Predicate.bcast_scalar _ Cert.Pre_finite_inputs.Facts.h_S_] at t
    exact t
  rw [show (0#32 : BitVec 32).toInt = 0 from by decide] at a'
  rw [show (4096#32 : BitVec 32).toInt = 4096 from by decide] at b'
  exact ⟨a', b'⟩

end Cert.Lut

end
-- ==== Proof.lean ====
/-
  The certificate of the lookup-table layer: a Pallas kernel that multiplies the thresholded input bits by a selector
  matrix (built on the host from the wiring array by an accumulating scatter), rounds the product to an address and picks
  the addressed table entry through a chain of 64 selects, against a reference that gathers the wired bits, packs them
  into the address with integer arithmetic and gathers the table entry; both end with the logistic function.

  Over the extended reals both compute `G` (Proof/LutSpec.lean): logistic (tbl[l, addr(b, l)]) with
  addr(b, l) = ∑ k, 2^(5-k) · [x[b, conn[l, k]] > 1/2]. The two programs treat a wiring entry outside [0, 4096)
  differently (the gather clamps it, the scatter drops it), so the precondition asks every entry to be a column index;
  that is the only part of the precondition the proof uses.
  Kernel side: Proof/KHost.lean (what the region finds in its input arrays), Proof/KPow.lean (the weight vector),
  Proof/KScatter.lean and Proof/KSelector.lean (the selector matrix at an index), Proof/LutAlgebra.lean (bits against a
  selector column is the address), Proof/KPayload.lean (the body at an index), Proof/KValue.lean (blocks to the array).
  Reference side: Proof/RefGather.lean (the two gathers at an index), Proof/RefAddr.lean (the address word),
  Proof/RefValue.lean (the result is `G`). Proof/PreDecode.lean reads the index range out of the precondition.
-/
import proofs.«425095_j47828755808728_2_alg».proof.Defs
import proofs.«425095_j47828755808728_2_alg».proof.Proof.Gen.Kernel
import proofs.«425095_j47828755808728_2_alg».proof.Proof.Gen.Kernel.Skeleton
import proofs.«425095_j47828755808728_2_alg».proof.Proof.Gen.Kernel.Launch
import proofs.«425095_j47828755808728_2_alg».proof.Proof.Gen.Kernel.Points
import proofs.«425095_j47828755808728_2_alg».proof.Proof.Gen.Kernel.Frame
import proofs.«425095_j47828755808728_2_alg».proof.Proof.Gen.KernelIdeal
import proofs.«425095_j47828755808728_2_alg».proof.Proof.Gen.KernelIdeal.Skeleton
import proofs.«425095_j47828755808728_2_alg».proof.Proof.Gen.KernelIdeal.Launch
import proofs.«425095_j47828755808728_2_alg».proof.Proof.Gen.KernelIdeal.Points
import proofs.«425095_j47828755808728_2_alg».proof.Proof.Gen.KernelIdeal.Frame
import proofs.«425095_j47828755808728_2_alg».proof.Proof.Gen.KernelIdeal.Value
import proofs.«425095_j47828755808728_2_alg».proof.Proof.Gen.ReferenceIdeal
import proofs.«425095_j47828755808728_2_alg».proof.Proof.Gen.Pre_finite_inputs
import proofs.«425095_j47828755808728_2_alg».proof.Proof.KValue
import proofs.«425095_j47828755808728_2_alg».proof.Proof.RefRunP
import proofs.«425095_j47828755808728_2_alg».proof.Proof.RefValue
import proofs.«425095_j47828755808728_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the layer's function `G` of arguments that agree. -/
theorem algebraic : Cert.algebraic_KernelIdeal_ReferenceIdeal := by
  intro m ρ m' ρ' hpre hagree
  have hr : ∀ c : Dev Cert.KernelIdeal.nD, Cert.Lut.InRange (m ((c.tc : Thread Cert.KernelIdeal.nD Cert.KernelIdeal.τ).loc Cert.KernelIdeal.main_arg2)) :=
    fun c => Cert.Lut.inRange_of_pre _ _ _ (hpre c)
  refine ⟨fun c => Cert.Lut.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ hr, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact Cert.ReferenceIdeal.RefValue.ref_is_G _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
